-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x4 : Shape := ⟨2, ![500000, 4]⟩
abbrev S10000000x2 : Shape := ⟨2, ![10000000, 2]⟩
abbrev S10000000 : Shape := ⟨1, ![10000000]⟩
abbrev S500000 : Shape := ⟨1, ![500000]⟩
abbrev S2x4 : Shape := ⟨2, ![2, 4]⟩
abbrev S4 : Shape := ⟨1, ![4]⟩
abbrev S4x8 : Shape := ⟨2, ![4, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S_ : Shape := ⟨0, ![]⟩

class Facts : Prop where
  bcast_S_S500000x4 : S_.BroadcastsInDim S500000x4 (![] : Fin 0 → Fin S500000x4.rank)
  reducesTo_S500000x4_S_d0_1 : S500000x4.ReducesTo [0, 1] S_
  h_S_ : 0 < S_.numel
  bcast_S_S10000000x2 : S_.BroadcastsInDim S10000000x2 (![] : Fin 0 → Fin S10000000x2.rank)
  reducesTo_S10000000x2_S_d0_1 : S10000000x2.ReducesTo [0, 1] S_
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S10000000 : S_.BroadcastsInDim S10000000 (![] : Fin 0 → Fin S10000000.rank)
  reducesTo_S10000000_S_d0 : S10000000.ReducesTo [0] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S10000000 32) (main_arg17 : FVec F S8x1 .f32) (main_arg18 : FVec F S1 .f32) (main_v63 : IVec S_ 1) (main_v67 : IVec S_ 1) : IVec S_ 1 :=
  let main_v68 : IVec S_ 1 := andi main_v63 main_v67
  let main_v69 : FVec F S8x1 .f32 := Host.absf main_arg17
  let main_cst_26 : FVec F S_ .f32 := constant S_ .f32 0x7F800000#32
  let main_v70 : FVec F S8x1 .f32 := broadcastInDim S8x1 ![] bcast_S_S8x1 main_cst_26
  let main_v71 : IVec S8x1 1 := cmpf .olt main_v69 main_v70
  let main_c_27 : IVec S_ 1 := constantI S_ 1 1#1
  let main_v72 : IVec S_ 1 := (fun x v => Host.reduce IntOp.andi x v reducesTo_S8x1_S_d0_1 h_S_) main_v71 main_c_27
  let main_v73 : IVec S_ 1 := andi main_v68 main_v72
  let main_v74 : FVec F S1 .f32 := Host.absf main_arg18
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294467296#32
  let main_v79 : IVec S10000000 32 := broadcastInDim S10000000 ![] bcast_S_S10000000 main_c_30
  let main_v80 : IVec S10000000 1 := cmpi .sge main_arg2 main_v79
  let main_c_31 : IVec S_ 32 := constantI S_ 32 500000#32
  let main_v81 : IVec S10000000 32 := broadcastInDim S10000000 ![] bcast_S_S10000000 main_c_31
  let main_v82 : IVec S10000000 1 := cmpi .slt main_arg2 main_v81
  let main_v83 : IVec S10000000 1 := andi main_v80 main_v82
  let main_c_32 : IVec S_ 1 := constantI S_ 1 1#1
  let main_v84 : IVec S_ 1 := (fun x v => Host.reduce IntOp.andi x v reducesTo_S10000000_S_d0 h_S_) main_v83 main_c_32
  fn_part5 (F := F) main_v78 main_v84

def fn_part3 {F : FTy → Type} [FloatOps F] (main_arg2 : IVec S10000000 32) (main_arg14 : FVec F S8 .f32) (main_arg15 : FVec F S8x1 .f32) (main_arg16 : FVec F S1 .f32) (main_arg17 : FVec F S8x1 .f32) (main_arg18 : FVec F S1 .f32) (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  let main_v54 : FVec F S8 .f32 := Host.absf main_arg14
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8x1 .f32 := Host.absf main_arg15
  let main_cst_22 : FVec F S_ .f32 := constant S_ .f32 0x7F800000#32
  let main_v60 : FVec F S8x1 .f32 := broadcastInDim S8x1 ![] bcast_S_S8x1 main_cst_22
  let main_v61 : IVec S8x1 1 := cmpf .olt main_v59 main_v60
  let main_c_23 : IVec S_ 1 := constantI S_ 1 1#1
  let main_v62 : IVec S_ 1 := (fun x v => Host.reduce IntOp.andi x v reducesTo_S8x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_arg17 main_arg18 main_v63 main_v67

def fn_part2 {F : FTy → Type} [FloatOps F] (main_arg2 : IVec S10000000 32) (main_arg10 : FVec F S8x8 .f32) (main_arg11 : FVec F S8 .f32) (main_arg12 : FVec F S8x8 .f32) (main_arg13 : FVec F S8x8 .f32) (main_arg14 : FVec F S8 .f32) (main_arg15 : FVec F S8x1 .f32) (main_arg16 : FVec F S1 .f32) (main_arg17 : FVec F S8x1 .f32) (main_arg18 : FVec F S1 .f32) (main_v33 : IVec S_ 1) : IVec S_ 1 :=
  let main_v34 : FVec F S8x8 .f32 := Host.absf main_arg10
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg11
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg12
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8x8 .f32 := Host.absf main_arg13
  let main_cst_18 : FVec F S_ .f32 := constant S_ .f32 0x7F800000#32
  let main_v50 : FVec F S8x8 .f32 := broadcastInDim S8x8 ![] bcast_S_S8x8 main_cst_18
  fn_part3 (F := F) main_arg2 main_arg14 main_arg15 main_arg16 main_arg17 main_arg18 main_v48 main_v49 main_v50

def fn_part1 {F : FTy → Type} [FloatOps F] (main_arg2 : IVec S10000000 32) (main_arg7 : FVec F S4x8 .f32) (main_arg8 : FVec F S8 .f32) (main_arg9 : FVec F S4x8 .f32) (main_arg10 : FVec F S8x8 .f32) (main_arg11 : FVec F S8 .f32) (main_arg12 : FVec F S8x8 .f32) (main_arg13 : FVec F S8x8 .f32) (main_arg14 : FVec F S8 .f32) (main_arg15 : FVec F S8x1 .f32) (main_arg16 : FVec F S1 .f32) (main_arg17 : FVec F S8x1 .f32) (main_arg18 : FVec F S1 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x8 .f32 := Host.absf main_arg7
  let main_cst_6 : FVec F S_ .f32 := constant S_ .f32 0x7F800000#32
  let main_v20 : FVec F S4x8 .f32 := broadcastInDim S4x8 ![] bcast_S_S4x8 main_cst_6
  let main_v21 : IVec S4x8 1 := cmpf .olt main_v19 main_v20
  let main_c_7 : IVec S_ 1 := constantI S_ 1 1#1
  let main_v22 : IVec S_ 1 := (fun x v => Host.reduce IntOp.andi x v reducesTo_S4x8_S_d0_1 h_S_) main_v21 main_c_7
  let main_v23 : IVec S_ 1 := andi main_v18 main_v22
  let main_v24 : FVec F S8 .f32 := Host.absf main_arg8
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S4x8 .f32 := Host.absf main_arg9
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg2 main_arg10 main_arg11 main_arg12 main_arg13 main_arg14 main_arg15 main_arg16 main_arg17 main_arg18 main_v33

def fn {F : FTy → Type} [FloatOps F] (main_arg0 : FVec F S500000x4 .f32) (main_arg1 : FVec F S10000000x2 .f32) (main_arg2 : IVec S10000000 32) (main_arg3 : IVec S10000000 32) (main_arg4 : IVec S500000 32) (main_arg5 : FVec F S2x4 .f32) (main_arg6 : FVec F S4 .f32) (main_arg7 : FVec F S4x8 .f32) (main_arg8 : FVec F S8 .f32) (main_arg9 : FVec F S4x8 .f32) (main_arg10 : FVec F S8x8 .f32) (main_arg11 : FVec F S8 .f32) (main_arg12 : FVec F S8x8 .f32) (main_arg13 : FVec F S8x8 .f32) (main_arg14 : FVec F S8 .f32) (main_arg15 : FVec F S8x1 .f32) (main_arg16 : FVec F S1 .f32) (main_arg17 : FVec F S8x1 .f32) (main_arg18 : FVec F S1 .f32) : IVec S_ 1 :=
  let main_v0 : FVec F S500000x4 .f32 := Host.absf main_arg0
  let main_cst : FVec F S_ .f32 := constant S_ .f32 0x7F800000#32
  let main_v1 : FVec F S500000x4 .f32 := broadcastInDim S500000x4 ![] bcast_S_S500000x4 main_cst
  let main_v2 : IVec S500000x4 1 := cmpf .olt main_v0 main_v1
  let main_c : IVec S_ 1 := constantI S_ 1 1#1
  let main_v3 : IVec S_ 1 := (fun x v => Host.reduce IntOp.andi x v reducesTo_S500000x4_S_d0_1 h_S_) main_v2 main_c
  let main_v4 : FVec F S10000000x2 .f32 := Host.absf main_arg1
  let main_cst_0 : FVec F S_ .f32 := constant S_ .f32 0x7F800000#32
  let main_v5 : FVec F S10000000x2 .f32 := broadcastInDim S10000000x2 ![] bcast_S_S10000000x2 main_cst_0
  let main_v6 : IVec S10000000x2 1 := cmpf .olt main_v4 main_v5
  let main_c_1 : IVec S_ 1 := constantI S_ 1 1#1
  let main_v7 : IVec S_ 1 := (fun x v => Host.reduce IntOp.andi x v reducesTo_S10000000x2_S_d0_1 h_S_) main_v6 main_c_1
  let main_v8 : IVec S_ 1 := andi main_v3 main_v7
  let main_v9 : FVec F S2x4 .f32 := Host.absf main_arg5
  let main_cst_2 : FVec F S_ .f32 := constant S_ .f32 0x7F800000#32
  let main_v10 : FVec F S2x4 .f32 := broadcastInDim S2x4 ![] bcast_S_S2x4 main_cst_2
  let main_v11 : IVec S2x4 1 := cmpf .olt main_v9 main_v10
  let main_c_3 : IVec S_ 1 := constantI S_ 1 1#1
  let main_v12 : IVec S_ 1 := (fun x v => Host.reduce IntOp.andi x v reducesTo_S2x4_S_d0_1 h_S_) main_v11 main_c_3
  let main_v13 : IVec S_ 1 := andi main_v8 main_v12
  let main_v14 : FVec F S4 .f32 := Host.absf main_arg6
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg2 main_arg7 main_arg8 main_arg9 main_arg10 main_arg11 main_arg12 main_arg13 main_arg14 main_arg15 main_arg16 main_arg17 main_arg18 main_v13 main_v16
-- ==== Kernel.lean ====
abbrev S500000x4 : Shape := ⟨2, ![500000, 4]⟩
abbrev S10000000x2 : Shape := ⟨2, ![10000000, 2]⟩
abbrev S10000000 : Shape := ⟨1, ![10000000]⟩
abbrev S500000 : Shape := ⟨1, ![500000]⟩
abbrev S2x4 : Shape := ⟨2, ![2, 4]⟩
abbrev S4 : Shape := ⟨1, ![4]⟩
abbrev S4x8 : Shape := ⟨2, ![4, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x8 : Shape := ⟨2, ![1, 8]⟩
abbrev S500000x8 : Shape := ⟨2, ![500000, 8]⟩
abbrev S20000x4 : Shape := ⟨2, ![20000, 4]⟩
abbrev S20000x8 : Shape := ⟨2, ![20000, 8]⟩
abbrev S_ : Shape := ⟨0, ![]⟩
abbrev S10000000x1 : Shape := ⟨2, ![10000000, 1]⟩
abbrev S1x1 : Shape := ⟨2, ![1, 1]⟩
abbrev S10000000x8 : Shape := ⟨2, ![10000000, 8]⟩
abbrev S1x4 : Shape := ⟨2, ![1, 4]⟩
abbrev S10000x2 : Shape := ⟨2, ![10000, 2]⟩
abbrev S10000x8 : Shape := ⟨2, ![10000, 8]⟩
abbrev S10000x4 : Shape := ⟨2, ![10000, 4]⟩
abbrev S500000x1 : Shape := ⟨2, ![500000, 1]⟩
abbrev S10000x1 : Shape := ⟨2, ![10000, 1]⟩
abbrev S128x8 : Shape := ⟨2, ![128, 8]⟩
abbrev S128x1 : Shape := ⟨2, ![128, 1]⟩

abbrev nBuf : Space → Nat
  | .hbm => 75
  | .vmem => 30
  | .smem => 0
  | _ => 0

abbrev bufTy : (tb : Table) → Fin (tcTables nBuf tb) → BufTy
  | .hbm, ⟨0, _⟩ => ⟨S500000x4, .f32⟩
  | .hbm, ⟨1, _⟩ => ⟨S10000000x2, .f32⟩
  | .hbm, ⟨2, _⟩ => ⟨S10000000, .i32⟩
  | .hbm, ⟨3, _⟩ => ⟨S10000000, .i32⟩
  | .hbm, ⟨4, _⟩ => ⟨S500000, .i32⟩
  | .hbm, ⟨5, _⟩ => ⟨S2x4, .f32⟩
  | .hbm, ⟨6, _⟩ => ⟨S4, .f32⟩
  | .hbm, ⟨7, _⟩ => ⟨S4x8, .f32⟩
  | .hbm, ⟨8, _⟩ => ⟨S8, .f32⟩
  | .hbm, ⟨9, _⟩ => ⟨S4x8, .f32⟩
  | .hbm, ⟨10, _⟩ => ⟨S8x8, .f32⟩
  | .hbm, ⟨11, _⟩ => ⟨S8, .f32⟩
  | .hbm, ⟨12, _⟩ => ⟨S8x8, .f32⟩
  | .hbm, ⟨13, _⟩ => ⟨S8x8, .f32⟩
  | .hbm, ⟨14, _⟩ => ⟨S8, .f32⟩
  | .hbm, ⟨15, _⟩ => ⟨S8x1, .f32⟩
  | .hbm, ⟨16, _⟩ => ⟨S1, .f32⟩
  | .hbm, ⟨17, _⟩ => ⟨S8x1, .f32⟩
  | .hbm, ⟨18, _⟩ => ⟨S1, .f32⟩
  | .hbm, ⟨19, _⟩ => ⟨S1x8, .f32⟩
  | .hbm, ⟨20, _⟩ => ⟨S500000x8, .f32⟩
  | .hbm, ⟨21, _⟩ => ⟨S_, .i32⟩
  | .hbm, ⟨22, _⟩ => ⟨S10000000, .i32⟩
  | .hbm, ⟨23, _⟩ => ⟨S10000000, .i1⟩
  | .hbm, ⟨24, _⟩ => ⟨S_, .i32⟩
  | .hbm, ⟨25, _⟩ => ⟨S10000000, .i32⟩
  | .hbm, ⟨26, _⟩ => ⟨S10000000, .i32⟩
  | .hbm, ⟨27, _⟩ => ⟨S10000000, .i32⟩
  | .hbm, ⟨28, _⟩ => ⟨S10000000x1, .i32⟩
  | .hbm, ⟨29, _⟩ => ⟨S1, .i32⟩
  | .hbm, ⟨30, _⟩ => ⟨S_, .i32⟩
  | .hbm, ⟨31, _⟩ => ⟨S10000000x1, .i32⟩
  | .hbm, ⟨32, _⟩ => ⟨S10000000x1, .i1⟩
  | .hbm, ⟨33, _⟩ => ⟨S1x1, .i32⟩
  | .hbm, ⟨34, _⟩ => ⟨S10000000x1, .i32⟩
  | .hbm, ⟨35, _⟩ => ⟨S10000000x1, .i1⟩
  | .hbm, ⟨36, _⟩ => ⟨S10000000x1, .i1⟩
  | .hbm, ⟨37, _⟩ => ⟨S_, .i1⟩
  | .hbm, ⟨38, _⟩ => ⟨S10000000, .i1⟩
  | .hbm, ⟨39, _⟩ => ⟨S10000000x8, .f32⟩
  | .hbm, ⟨40, _⟩ => ⟨S10000000x8, .i1⟩
  | .hbm, ⟨41, _⟩ => ⟨S_, .f32⟩
  | .hbm, ⟨42, _⟩ => ⟨S10000000x8, .f32⟩
  | .hbm, ⟨43, _⟩ => ⟨S10000000x8, .f32⟩
  | .hbm, ⟨44, _⟩ => ⟨S1x4, .f32⟩
  | .hbm, ⟨45, _⟩ => ⟨S1x8, .f32⟩
  | .hbm, ⟨46, _⟩ => ⟨S10000000x8, .f32⟩
  | .hbm, ⟨47, _⟩ => ⟨S_, .f32⟩
  | .hbm, ⟨48, _⟩ => ⟨S500000x8, .f32⟩
  | .hbm, ⟨49, _⟩ => ⟨S10000000x1, .i32⟩
  | .hbm, ⟨50, _⟩ => ⟨S500000x8, .f32⟩
  | .hbm, ⟨51, _⟩ => ⟨S_, .f32⟩
  | .hbm, ⟨52, _⟩ => ⟨S10000000, .f32⟩
  | .hbm, ⟨53, _⟩ => ⟨S_, .f32⟩
  | .hbm, ⟨54, _⟩ => ⟨S500000, .f32⟩
  | .hbm, ⟨55, _⟩ => ⟨S10000000x1, .i32⟩
  | .hbm, ⟨56, _⟩ => ⟨S500000, .f32⟩
  | .hbm, ⟨57, _⟩ => ⟨S_, .f32⟩
  | .hbm, ⟨58, _⟩ => ⟨S500000, .f32⟩
  | .hbm, ⟨59, _⟩ => ⟨S500000, .f32⟩
  | .hbm, ⟨60, _⟩ => ⟨S500000x1, .f32⟩
  | .hbm, ⟨61, _⟩ => ⟨S500000x8, .f32⟩
  | .hbm, ⟨62, _⟩ => ⟨S500000x8, .f32⟩
  | .hbm, ⟨63, _⟩ => ⟨S1x8, .f32⟩
  | .hbm, ⟨64, _⟩ => ⟨S1x1, .f32⟩
  | .hbm, ⟨65, _⟩ => ⟨S500000x8, .f32⟩
  | .hbm, ⟨66, _⟩ => ⟨S500000x1, .f32⟩
  | .hbm, ⟨67, _⟩ => ⟨S_, .f32⟩
  | .hbm, ⟨68, _⟩ => ⟨S128x8, .f32⟩
  | .hbm, ⟨69, _⟩ => ⟨S500000x1, .i32⟩
  | .hbm, ⟨70, _⟩ => ⟨S128x8, .f32⟩
  | .hbm, ⟨71, _⟩ => ⟨S128x1, .f32⟩
  | .hbm, ⟨72, _⟩ => ⟨S1x1, .f32⟩
  | .hbm, ⟨73, _⟩ => ⟨S128x1, .f32⟩
  | .hbm, ⟨74, _⟩ => ⟨S128x1, .f32⟩
  | .local _ .vmem, ⟨0, _⟩ => ⟨S20000x4, .f32⟩
  | .local _ .vmem, ⟨1, _⟩ => ⟨S20000x4, .f32⟩
  | .local _ .vmem, ⟨2, _⟩ => ⟨S4x8, .f32⟩
  | .local _ .vmem, ⟨3, _⟩ => ⟨S1x8, .f32⟩
  | .local _ .vmem, ⟨4, _⟩ => ⟨S20000x8, .f32⟩
  | .local _ .vmem, ⟨5, _⟩ => ⟨S20000x8, .f32⟩
  | .local _ .vmem, ⟨6, _⟩ => ⟨S10000x2, .f32⟩
  | .local _ .vmem, ⟨7, _⟩ => ⟨S10000x2, .f32⟩
  | .local _ .vmem, ⟨8, _⟩ => ⟨S10000x8, .f32⟩
  | .local _ .vmem, ⟨9, _⟩ => ⟨S10000x8, .f32⟩
  | .local _ .vmem, ⟨10, _⟩ => ⟨S2x4, .f32⟩
  | .local _ .vmem, ⟨11, _⟩ => ⟨S1x4, .f32⟩
  | .local _ .vmem, ⟨12, _⟩ => ⟨S4x8, .f32⟩
  | .local _ .vmem, ⟨13, _⟩ => ⟨S8x8, .f32⟩
  | .local _ .vmem, ⟨14, _⟩ => ⟨S1x8, .f32⟩
  | .local _ .vmem, ⟨15, _⟩ => ⟨S10000x8, .f32⟩
  | .local _ .vmem, ⟨16, _⟩ => ⟨S10000x8, .f32⟩
  | .local _ .vmem, ⟨17, _⟩ => ⟨S10000x8, .f32⟩
  | .local _ .vmem, ⟨18, _⟩ => ⟨S10000x8, .f32⟩
  | .local _ .vmem, ⟨19, _⟩ => ⟨S10000x8, .f32⟩
  | .local _ .vmem, ⟨20, _⟩ => ⟨S10000x8, .f32⟩
  | .local _ .vmem, ⟨21, _⟩ => ⟨S8x8, .f32⟩
  | .local _ .vmem, ⟨22, _⟩ => ⟨S8x8, .f32⟩
  | .local _ .vmem, ⟨23, _⟩ => ⟨S1x8, .f32⟩
  | .local _ .vmem, ⟨24, _⟩ => ⟨S8x1, .f32⟩
  | .local _ .vmem, ⟨25, _⟩ => ⟨S1x1, .f32⟩
  | .local _ .vmem, ⟨26, _⟩ => ⟨S10000x8, .f32⟩
  | .local _ .vmem, ⟨27, _⟩ => ⟨S10000x8, .f32⟩
  | .local _ .vmem, ⟨28, _⟩ => ⟨S10000x1, .f32⟩
  | .local _ .vmem, ⟨29, _⟩ => ⟨S10000x1, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst_0 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20_0 : Ref sig .tc := ⟨.hbm, 65, rfl⟩
abbrev main_v20_1 : Ref sig .tc := ⟨.hbm, 66, rfl⟩
abbrev main_cst_3 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S10000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S8_S1x8 : S8.ShapeCasts S1x8
  inb_S20000x4_S20000x4_0_0 : ∀ a, (![0, 0] : Fin 2 → Nat) a + S20000x4.size a ≤ S20000x4.size a
  h_S20000x4 : 0 < S20000x4.numel
  bitsLt_bf16_f32 : FTy.bits .bf16 < FTy.bits .f32
  inb_S4x8_S4x8_0_0 : ∀ a, (![0, 0] : Fin 2 → Nat) a + S4x8.size a ≤ S4x8.size a
  h_S4x8 : 0 < S4x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S20000x8 : S1x8.Broadcasts S20000x8
  inb_S20000x8_S20000x8_0_0 : ∀ a, (![0, 0] : Fin 2 → Nat) a + S20000x8.size a ≤ S20000x8.size a
  h_S20000x8 : 0 < S20000x8.numel
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S_S10000000x1 : S_.BroadcastsInDim S10000000x1 (![] : Fin 0 → Fin S10000000x1.rank)
  bcast_S1_S1x1_1 : S1.BroadcastsInDim S1x1 (![1] : Fin 1 → Fin S1x1.rank)
  bcast_S1x1_S10000000x1_0_1 : S1x1.BroadcastsInDim S10000000x1 (![0, 1] : Fin 2 → Fin S10000000x1.rank)
  reducesTo_S10000000x1_S10000000_d1 : S10000000x1.ReducesTo [1] S10000000
  h_S_ : 0 < S_.numel
  bcast_S10000000_S10000000x8_0 : S10000000.BroadcastsInDim S10000000x8 (![0] : Fin 1 → Fin S10000000x8.rank)
  bcast_S_S10000000x8 : S_.BroadcastsInDim S10000000x8 (![] : Fin 0 → Fin S10000000x8.rank)
  shapeCasts_S4_S1x4 : S4.ShapeCasts S1x4
  inb_S10000x2_S10000x2_0_0 : ∀ a, (![0, 0] : Fin 2 → Nat) a + S10000x2.size a ≤ S10000x2.size a
  h_S10000x2 : 0 < S10000x2.numel
  inb_S2x4_S2x4_0_0 : ∀ a, (![0, 0] : Fin 2 → Nat) a + S2x4.size a ≤ S2x4.size a
  h_S2x4 : 0 < S2x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S8x8_S8x8_0_0 : ∀ a, (![0, 0] : Fin 2 → Nat) a + S8x8.size a ≤ S8x8.size a
  h_S8x8 : 0 < S8x8.numel
  broadcasts_S1x8_S10000x8 : S1x8.Broadcasts S10000x8
  bcast_S_S500000x8 : S_.BroadcastsInDim S500000x8 (![] : Fin 0 → Fin S500000x8.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x8_0_1 : S500000x1.BroadcastsInDim S500000x8 (![0, 1] : Fin 2 → Fin S500000x8.rank)
  shapeCasts_S1_S1x1 : S1.ShapeCasts S1x1
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S128x8 : S_.BroadcastsInDim S128x8 (![] : Fin 0 → Fin S128x8.rank)
  bcast_S1x1_S128x1_0_1 : S1x1.BroadcastsInDim S128x1 (![0, 1] : Fin 2 → Fin S128x1.rank)
  dot_S20000x4_S4x8_S20000x8_1_0_0_1_n_n_wf : DotDims.WF S20000x4 S4x8 S20000x8 [1] [0] [0] [1] [] []
  gather_S500000x8_S10000000x1_S10000000x8_1_0_n_n_0_1_18_wf : GatherDims.WF S500000x8 S10000000x1 S10000000x8 [1] [0] [] [0] [] 1 ![1, 8]
  dot_S10000x2_S2x4_S10000x4_1_0_0_1_n_n_wf : DotDims.WF S10000x2 S2x4 S10000x4 [1] [0] [0] [1] [] []
  dot_S10000x4_S4x8_S10000x8_1_0_0_1_n_n_wf : DotDims.WF S10000x4 S4x8 S10000x8 [1] [0] [0] [1] [] []
  dot_S10000x8_S8x8_S10000x8_1_0_0_1_n_n_wf : DotDims.WF S10000x8 S8x8 S10000x8 [1] [0] [0] [1] [] []
  scatter_S500000x8_S10000000x1_S10000000x8_1_0_0_1_wf : ScatterDims.WF S500000x8 S10000000x1 S10000000x8 [1] [0] [0] 1
  scatter_S500000_S10000000x1_S10000000_n_0_0_1_wf : ScatterDims.WF S500000 S10000000x1 S10000000 [] [0] [0] 1
  dot_S10000x8_S8x1_S10000x1_1_0_0_1_n_n_wf : DotDims.WF S10000x8 S8x1 S10000x1 [1] [0] [0] [1] [] []
  scatter_S128x8_S500000x1_S500000x8_1_0_0_1_wf : ScatterDims.WF S128x8 S500000x1 S500000x8 [1] [0] [0] 1
  dot_S128x8_S8x1_S128x1_1_0_0_1_n_n_wf : DotDims.WF S128x8 S8x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x4.size a ≤ S500000x4.size a
  hwx0_0 : ∀ i : grid0.Coords, EltTy.bits .f32 = 32 ∨ (Rect.block (s := S500000x4) S20000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8.size a ≤ S4x8.size a
  hwx0_1 : ∀ i : grid0.Coords, EltTy.bits .f32 = 32 ∨ (Rect.block (s := S4x8) S4x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x8.size a ≤ S500000x8.size a
  hwx0_3 : ∀ i : grid0.Coords, EltTy.bits .f32 = 32 ∨ (Rect.block (s := S500000x8) S20000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S10000000x2.size a
  hwx1_0 : ∀ i : grid1.Coords, EltTy.bits .f32 = 32 ∨ (Rect.block (s := S10000000x2) S10000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S10000000x8.size a
  hwx1_1 : ∀ i : grid1.Coords, EltTy.bits .f32 = 32 ∨ (Rect.block (s := S10000000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x4.size a ≤ S2x4.size a
  hwx1_2 : ∀ i : grid1.Coords, EltTy.bits .f32 = 32 ∨ (Rect.block (s := S2x4) S2x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x8.size a ≤ S4x8.size a
  hwx1_4 : ∀ i : grid1.Coords, EltTy.bits .f32 = 32 ∨ (Rect.block (s := S4x8) S4x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x8.size a ≤ S8x8.size a
  hwx1_5 : ∀ i : grid1.Coords, EltTy.bits .f32 = 32 ∨ (Rect.block (s := S8x8) S8x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x8.size a ≤ S10000000x8.size a
  hwx1_7 : ∀ i : grid1.Coords, EltTy.bits .f32 = 32 ∨ (Rect.block (s := S10000000x8) S10000x8.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S500000x8.size a
  hwx2_0 : ∀ i : grid2.Coords, EltTy.bits .f32 = 32 ∨ (Rect.block (s := S500000x8) S10000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S500000x8.size a
  hwx2_1 : ∀ i : grid2.Coords, EltTy.bits .f32 = 32 ∨ (Rect.block (s := S500000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x8.size a ≤ S8x8.size a
  hwx2_2 : ∀ i : grid2.Coords, EltTy.bits .f32 = 32 ∨ (Rect.block (s := S8x8) S8x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x8.size a ≤ S8x8.size a
  hwx2_3 : ∀ i : grid2.Coords, EltTy.bits .f32 = 32 ∨ (Rect.block (s := S8x8) S8x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x1.size a ≤ S8x1.size a
  hwx2_5 : ∀ i : grid2.Coords, EltTy.bits .f32 = 32 ∨ (Rect.block (s := S8x1) S8x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x8.size a ≤ S500000x8.size a
  hwx2_7 : ∀ i : grid2.Coords, EltTy.bits .f32 = 32 ∨ (Rect.block (s := S500000x8) S10000x8.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x1.size a ≤ S500000x1.size a
  hwx2_8 : ∀ i : grid2.Coords, EltTy.bits .f32 = 32 ∨ (Rect.block (s := S500000x1) S10000x1.size (cc2_transform_8 i) (hinb2_8 i)).WholeWords (EltTy.packing .f32)

variable [Facts₀]

def dot_S20000x4_S4x8_S20000x8_1_0_0_1_n_n : DotDims S20000x4 S4x8 S20000x8 where
  lhsContracting := [1]
  rhsContracting := [0]
  lhsNonContracting := [0]
  rhsNonContracting := [1]
  lhsBatch := []
  rhsBatch := []
  wf := dot_S20000x4_S4x8_S20000x8_1_0_0_1_n_n_wf
def gather_S500000x8_S10000000x1_S10000000x8_1_0_n_n_0_1_18 : GatherDims S500000x8 S10000000x1 S10000000x8 where
  offsetDims := [1]
  collapsedSliceDims := [0]
  operandBatchingDims := []
  startIndicesBatchingDims := []
  startIndexMap := [0]
  indexVectorDim := 1
  sliceSizes := ![1, 8]
  wf := gather_S500000x8_S10000000x1_S10000000x8_1_0_n_n_0_1_18_wf
def dot_S10000x2_S2x4_S10000x4_1_0_0_1_n_n : DotDims S10000x2 S2x4 S10000x4 where
  lhsContracting := [1]
  rhsContracting := [0]
  lhsNonContracting := [0]
  rhsNonContracting := [1]
  lhsBatch := []
  rhsBatch := []
  wf := dot_S10000x2_S2x4_S10000x4_1_0_0_1_n_n_wf
def dot_S10000x4_S4x8_S10000x8_1_0_0_1_n_n : DotDims S10000x4 S4x8 S10000x8 where
  lhsContracting := [1]
  rhsContracting := [0]
  lhsNonContracting := [0]
  rhsNonContracting := [1]
  lhsBatch := []
  rhsBatch := []
  wf := dot_S10000x4_S4x8_S10000x8_1_0_0_1_n_n_wf
def dot_S10000x8_S8x8_S10000x8_1_0_0_1_n_n : DotDims S10000x8 S8x8 S10000x8 where
  lhsContracting := [1]
  rhsContracting := [0]
  lhsNonContracting := [0]
  rhsNonContracting := [1]
  lhsBatch := []
  rhsBatch := []
  wf := dot_S10000x8_S8x8_S10000x8_1_0_0_1_n_n_wf
def scatter_S500000x8_S10000000x1_S10000000x8_1_0_0_1 : ScatterDims S500000x8 S10000000x1 S10000000x8 where
  updateWindowDims := [1]
  insertedWindowDims := [0]
  scatterDimsToOperandDims := [0]
  indexVectorDim := 1
  wf := scatter_S500000x8_S10000000x1_S10000000x8_1_0_0_1_wf
def scatter_S500000_S10000000x1_S10000000_n_0_0_1 : ScatterDims S500000 S10000000x1 S10000000 where
  updateWindowDims := []
  insertedWindowDims := [0]
  scatterDimsToOperandDims := [0]
  indexVectorDim := 1
  wf := scatter_S500000_S10000000x1_S10000000_n_0_0_1_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf
def scatter_S128x8_S500000x1_S500000x8_1_0_0_1 : ScatterDims S128x8 S500000x1 S500000x8 where
  updateWindowDims := [1]
  insertedWindowDims := [0]
  scatterDimsToOperandDims := [0]
  indexVectorDim := 1
  wf := scatter_S128x8_S500000x1_S500000x8_1_0_0_1_wf
def dot_S128x8_S8x1_S128x1_1_0_0_1_n_n : DotDims S128x8 S8x1 S128x1 where
  lhsContracting := [1]
  rhsContracting := [0]
  lhsNonContracting := [0]
  rhsNonContracting := [1]
  lhsBatch := []
  rhsBatch := []
  wf := dot_S128x8_S8x1_S128x1_1_0_0_1_n_n_wf

abbrev win0_0 : Pipeline.Window sig grid0 :=
  Pipeline.Window.ofSpec (Memref.whole main_arg0) S20000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S4x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S4x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S8x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S10000x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S8x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S8x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S8x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20_0) S10000x8.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v20_1) S10000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S500000x4 : Shape := ⟨2, ![500000, 4]⟩
abbrev S10000000x2 : Shape := ⟨2, ![10000000, 2]⟩
abbrev S10000000 : Shape := ⟨1, ![10000000]⟩
abbrev S500000 : Shape := ⟨1, ![500000]⟩
abbrev S2x4 : Shape := ⟨2, ![2, 4]⟩
abbrev S4 : Shape := ⟨1, ![4]⟩
abbrev S4x8 : Shape := ⟨2, ![4, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S10000000x4 : Shape := ⟨2, ![10000000, 4]⟩
abbrev S1x4 : Shape := ⟨2, ![1, 4]⟩
abbrev S_ : Shape := ⟨0, ![]⟩
abbrev S500000x8 : Shape := ⟨2, ![500000, 8]⟩
abbrev S1x8 : Shape := ⟨2, ![1, 8]⟩
abbrev S10000000x8 : Shape := ⟨2, ![10000000, 8]⟩
abbrev S10000000x1 : Shape := ⟨2, ![10000000, 1]⟩
abbrev S500000x1 : Shape := ⟨2, ![500000, 1]⟩
abbrev S1x1 : Shape := ⟨2, ![1, 1]⟩
abbrev S128x8 : Shape := ⟨2, ![128, 8]⟩
abbrev S128x1 : Shape := ⟨2, ![128, 1]⟩

abbrev nBuf : Space → Nat
  | .hbm => 88
  | .vmem => 0
  | .smem => 0
  | _ => 0

abbrev bufTy : (tb : Table) → Fin (tcTables nBuf tb) → BufTy
  | .hbm, ⟨0, _⟩ => ⟨S500000x4, .f32⟩
  | .hbm, ⟨1, _⟩ => ⟨S10000000x2, .f32⟩
  | .hbm, ⟨2, _⟩ => ⟨S10000000, .i32⟩
  | .hbm, ⟨3, _⟩ => ⟨S10000000, .i32⟩
  | .hbm, ⟨4, _⟩ => ⟨S500000, .i32⟩
  | .hbm, ⟨5, _⟩ => ⟨S2x4, .f32⟩
  | .hbm, ⟨6, _⟩ => ⟨S4, .f32⟩
  | .hbm, ⟨7, _⟩ => ⟨S4x8, .f32⟩
  | .hbm, ⟨8, _⟩ => ⟨S8, .f32⟩
  | .hbm, ⟨9, _⟩ => ⟨S4x8, .f32⟩
  | .hbm, ⟨10, _⟩ => ⟨S8x8, .f32⟩
  | .hbm, ⟨11, _⟩ => ⟨S8, .f32⟩
  | .hbm, ⟨12, _⟩ => ⟨S8x8, .f32⟩
  | .hbm, ⟨13, _⟩ => ⟨S8x8, .f32⟩
  | .hbm, ⟨14, _⟩ => ⟨S8, .f32⟩
  | .hbm, ⟨15, _⟩ => ⟨S8x1, .f32⟩
  | .hbm, ⟨16, _⟩ => ⟨S1, .f32⟩
  | .hbm, ⟨17, _⟩ => ⟨S8x1, .f32⟩
  | .hbm, ⟨18, _⟩ => ⟨S1, .f32⟩
  | .hbm, ⟨19, _⟩ => ⟨S10000000x4, .f32⟩
  | .hbm, ⟨20, _⟩ => ⟨S1x4, .f32⟩
  | .hbm, ⟨21, _⟩ => ⟨S10000000x4, .f32⟩
  | .hbm, ⟨22, _⟩ => ⟨S10000000x4, .f32⟩
  | .hbm, ⟨23, _⟩ => ⟨S_, .f32⟩
  | .hbm, ⟨24, _⟩ => ⟨S10000000x4, .f32⟩
  | .hbm, ⟨25, _⟩ => ⟨S10000000x4, .f32⟩
  | .hbm, ⟨26, _⟩ => ⟨S500000x8, .f32⟩
  | .hbm, ⟨27, _⟩ => ⟨S1x8, .f32⟩
  | .hbm, ⟨28, _⟩ => ⟨S500000x8, .f32⟩
  | .hbm, ⟨29, _⟩ => ⟨S500000x8, .f32⟩
  | .hbm, ⟨30, _⟩ => ⟨S_, .f32⟩
  | .hbm, ⟨31, _⟩ => ⟨S500000x8, .f32⟩
  | .hbm, ⟨32, _⟩ => ⟨S500000x8, .f32⟩
  | .hbm, ⟨33, _⟩ => ⟨S10000000x8, .f32⟩
  | .hbm, ⟨34, _⟩ => ⟨S_, .i32⟩
  | .hbm, ⟨35, _⟩ => ⟨S10000000, .i32⟩
  | .hbm, ⟨36, _⟩ => ⟨S10000000, .i1⟩
  | .hbm, ⟨37, _⟩ => ⟨S_, .i32⟩
  | .hbm, ⟨38, _⟩ => ⟨S10000000, .i32⟩
  | .hbm, ⟨39, _⟩ => ⟨S10000000, .i32⟩
  | .hbm, ⟨40, _⟩ => ⟨S10000000, .i32⟩
  | .hbm, ⟨41, _⟩ => ⟨S10000000x1, .i32⟩
  | .hbm, ⟨42, _⟩ => ⟨S10000000x8, .f32⟩
  | .hbm, ⟨43, _⟩ => ⟨S10000000x8, .f32⟩
  | .hbm, ⟨44, _⟩ => ⟨S10000000x8, .f32⟩
  | .hbm, ⟨45, _⟩ => ⟨S1x8, .f32⟩
  | .hbm, ⟨46, _⟩ => ⟨S10000000x8, .f32⟩
  | .hbm, ⟨47, _⟩ => ⟨S10000000x8, .f32⟩
  | .hbm, ⟨48, _⟩ => ⟨S_, .f32⟩
  | .hbm, ⟨49, _⟩ => ⟨S10000000x8, .f32⟩
  | .hbm, ⟨50, _⟩ => ⟨S10000000x8, .f32⟩
  | .hbm, ⟨51, _⟩ => ⟨S_, .f32⟩
  | .hbm, ⟨52, _⟩ => ⟨S500000x8, .f32⟩
  | .hbm, ⟨53, _⟩ => ⟨S10000000x1, .i32⟩
  | .hbm, ⟨54, _⟩ => ⟨S500000x8, .f32⟩
  | .hbm, ⟨55, _⟩ => ⟨S_, .f32⟩
  | .hbm, ⟨56, _⟩ => ⟨S10000000, .f32⟩
  | .hbm, ⟨57, _⟩ => ⟨S_, .f32⟩
  | .hbm, ⟨58, _⟩ => ⟨S500000, .f32⟩
  | .hbm, ⟨59, _⟩ => ⟨S10000000x1, .i32⟩
  | .hbm, ⟨60, _⟩ => ⟨S500000, .f32⟩
  | .hbm, ⟨61, _⟩ => ⟨S_, .f32⟩
  | .hbm, ⟨62, _⟩ => ⟨S500000, .f32⟩
  | .hbm, ⟨63, _⟩ => ⟨S500000, .f32⟩
  | .hbm, ⟨64, _⟩ => ⟨S500000x1, .f32⟩
  | .hbm, ⟨65, _⟩ => ⟨S500000x8, .f32⟩
  | .hbm, ⟨66, _⟩ => ⟨S500000x8, .f32⟩
  | .hbm, ⟨67, _⟩ => ⟨S500000x8, .f32⟩
  | .hbm, ⟨68, _⟩ => ⟨S500000x8, .f32⟩
  | .hbm, ⟨69, _⟩ => ⟨S500000x8, .f32⟩
  | .hbm, ⟨70, _⟩ => ⟨S1x8, .f32⟩
  | .hbm, ⟨71, _⟩ => ⟨S500000x8, .f32⟩
  | .hbm, ⟨72, _⟩ => ⟨S500000x8, .f32⟩
  | .hbm, ⟨73, _⟩ => ⟨S_, .f32⟩
  | .hbm, ⟨74, _⟩ => ⟨S500000x8, .f32⟩
  | .hbm, ⟨75, _⟩ => ⟨S500000x8, .f32⟩
  | .hbm, ⟨76, _⟩ => ⟨S500000x1, .f32⟩
  | .hbm, ⟨77, _⟩ => ⟨S1x1, .f32⟩
  | .hbm, ⟨78, _⟩ => ⟨S500000x1, .f32⟩
  | .hbm, ⟨79, _⟩ => ⟨S500000x1, .f32⟩
  | .hbm, ⟨80, _⟩ => ⟨S_, .f32⟩
  | .hbm, ⟨81, _⟩ => ⟨S128x8, .f32⟩
  | .hbm, ⟨82, _⟩ => ⟨S500000x1, .i32⟩
  | .hbm, ⟨83, _⟩ => ⟨S128x8, .f32⟩
  | .hbm, ⟨84, _⟩ => ⟨S128x1, .f32⟩
  | .hbm, ⟨85, _⟩ => ⟨S1x1, .f32⟩
  | .hbm, ⟨86, _⟩ => ⟨S128x1, .f32⟩
  | .hbm, ⟨87, _⟩ => ⟨S128x1, .f32⟩
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call2_cst : Ref sig .tc := ⟨.hbm, 48, rfl⟩
abbrev main_call2_v0 : Ref sig .tc := ⟨.hbm, 49, rfl⟩
abbrev main_v23 : Ref sig .tc := ⟨.hbm, 50, rfl⟩
abbrev main_cst : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_1 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call3_cst : Ref sig .tc := ⟨.hbm, 73, rfl⟩
abbrev main_call3_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S10000000x4_0_1 : S1x4.BroadcastsInDim S10000000x4 (![0, 1] : Fin 2 → Fin S10000000x4.rank)
  bcast_S_S10000000x4 : S_.BroadcastsInDim S10000000x4 (![] : Fin 0 → Fin S10000000x4.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S_S500000x8 : S_.BroadcastsInDim S500000x8 (![] : Fin 0 → Fin S500000x8.rank)
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S1x8_S10000000x8_0_1 : S1x8.BroadcastsInDim S10000000x8 (![0, 1] : Fin 2 → Fin S10000000x8.rank)
  bcast_S_S10000000x8 : S_.BroadcastsInDim S10000000x8 (![] : Fin 0 → Fin S10000000x8.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x8_0_1 : S500000x1.BroadcastsInDim S500000x8 (![0, 1] : Fin 2 → Fin S500000x8.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S128x8 : S_.BroadcastsInDim S128x8 (![] : Fin 0 → Fin S128x8.rank)
  bcast_S1x1_S128x1_0_1 : S1x1.BroadcastsInDim S128x1 (![0, 1] : Fin 2 → Fin S128x1.rank)
  dot_S10000000x2_S2x4_S10000000x4_1_0_0_1_n_n_wf : DotDims.WF S10000000x2 S2x4 S10000000x4 [1] [0] [0] [1] [] []
  dot_S500000x4_S4x8_S500000x8_1_0_0_1_n_n_wf : DotDims.WF S500000x4 S4x8 S500000x8 [1] [0] [0] [1] [] []
  dot_S10000000x4_S4x8_S10000000x8_1_0_0_1_n_n_wf : DotDims.WF S10000000x4 S4x8 S10000000x8 [1] [0] [0] [1] [] []
  gather_S500000x8_S10000000x1_S10000000x8_1_0_n_n_0_1_18_wf : GatherDims.WF S500000x8 S10000000x1 S10000000x8 [1] [0] [] [0] [] 1 ![1, 8]
  dot_S10000000x8_S8x8_S10000000x8_1_0_0_1_n_n_wf : DotDims.WF S10000000x8 S8x8 S10000000x8 [1] [0] [0] [1] [] []
  scatter_S500000x8_S10000000x1_S10000000x8_1_0_0_1_wf : ScatterDims.WF S500000x8 S10000000x1 S10000000x8 [1] [0] [0] 1
  scatter_S500000_S10000000x1_S10000000_n_0_0_1_wf : ScatterDims.WF S500000 S10000000x1 S10000000 [] [0] [0] 1
  dot_S500000x8_S8x8_S500000x8_1_0_0_1_n_n_wf : DotDims.WF S500000x8 S8x8 S500000x8 [1] [0] [0] [1] [] []
  dot_S500000x8_S8x1_S500000x1_1_0_0_1_n_n_wf : DotDims.WF S500000x8 S8x1 S500000x1 [1] [0] [0] [1] [] []
  scatter_S128x8_S500000x1_S500000x8_1_0_0_1_wf : ScatterDims.WF S128x8 S500000x1 S500000x8 [1] [0] [0] 1
  dot_S128x8_S8x1_S128x1_1_0_0_1_n_n_wf : DotDims.WF S128x8 S8x1 S128x1 [1] [0] [0] [1] [] []

variable [Facts₀]

def dot_S10000000x2_S2x4_S10000000x4_1_0_0_1_n_n : DotDims S10000000x2 S2x4 S10000000x4 where
  lhsContracting := [1]
  rhsContracting := [0]
  lhsNonContracting := [0]
  rhsNonContracting := [1]
  lhsBatch := []
  rhsBatch := []
  wf := dot_S10000000x2_S2x4_S10000000x4_1_0_0_1_n_n_wf
def dot_S500000x4_S4x8_S500000x8_1_0_0_1_n_n : DotDims S500000x4 S4x8 S500000x8 where
  lhsContracting := [1]
  rhsContracting := [0]
  lhsNonContracting := [0]
  rhsNonContracting := [1]
  lhsBatch := []
  rhsBatch := []
  wf := dot_S500000x4_S4x8_S500000x8_1_0_0_1_n_n_wf
def dot_S10000000x4_S4x8_S10000000x8_1_0_0_1_n_n : DotDims S10000000x4 S4x8 S10000000x8 where
  lhsContracting := [1]
  rhsContracting := [0]
  lhsNonContracting := [0]
  rhsNonContracting := [1]
  lhsBatch := []
  rhsBatch := []
  wf := dot_S10000000x4_S4x8_S10000000x8_1_0_0_1_n_n_wf
def gather_S500000x8_S10000000x1_S10000000x8_1_0_n_n_0_1_18 : GatherDims S500000x8 S10000000x1 S10000000x8 where
  offsetDims := [1]
  collapsedSliceDims := [0]
  operandBatchingDims := []
  startIndicesBatchingDims := []
  startIndexMap := [0]
  indexVectorDim := 1
  sliceSizes := ![1, 8]
  wf := gather_S500000x8_S10000000x1_S10000000x8_1_0_n_n_0_1_18_wf
def dot_S10000000x8_S8x8_S10000000x8_1_0_0_1_n_n : DotDims S10000000x8 S8x8 S10000000x8 where
  lhsContracting := [1]
  rhsContracting := [0]
  lhsNonContracting := [0]
  rhsNonContracting := [1]
  lhsBatch := []
  rhsBatch := []
  wf := dot_S10000000x8_S8x8_S10000000x8_1_0_0_1_n_n_wf
def scatter_S500000x8_S10000000x1_S10000000x8_1_0_0_1 : ScatterDims S500000x8 S10000000x1 S10000000x8 where
  updateWindowDims := [1]
  insertedWindowDims := [0]
  scatterDimsToOperandDims := [0]
  indexVectorDim := 1
  wf := scatter_S500000x8_S10000000x1_S10000000x8_1_0_0_1_wf
def scatter_S500000_S10000000x1_S10000000_n_0_0_1 : ScatterDims S500000 S10000000x1 S10000000 where
  updateWindowDims := []
  insertedWindowDims := [0]
  scatterDimsToOperandDims := [0]
  indexVectorDim := 1
  wf := scatter_S500000_S10000000x1_S10000000_n_0_0_1_wf
def dot_S500000x8_S8x8_S500000x8_1_0_0_1_n_n : DotDims S500000x8 S8x8 S500000x8 where
  lhsContracting := [1]
  rhsContracting := [0]
  lhsNonContracting := [0]
  rhsNonContracting := [1]
  lhsBatch := []
  rhsBatch := []
  wf := dot_S500000x8_S8x8_S500000x8_1_0_0_1_n_n_wf
def dot_S500000x8_S8x1_S500000x1_1_0_0_1_n_n : DotDims S500000x8 S8x1 S500000x1 where
  lhsContracting := [1]
  rhsContracting := [0]
  lhsNonContracting := [0]
  rhsNonContracting := [1]
  lhsBatch := []
  rhsBatch := []
  wf := dot_S500000x8_S8x1_S500000x1_1_0_0_1_n_n_wf
def scatter_S128x8_S500000x1_S500000x8_1_0_0_1 : ScatterDims S128x8 S500000x1 S500000x8 where
  updateWindowDims := [1]
  insertedWindowDims := [0]
  scatterDimsToOperandDims := [0]
  indexVectorDim := 1
  wf := scatter_S128x8_S500000x1_S500000x8_1_0_0_1_wf
def dot_S128x8_S8x1_S128x1_1_0_0_1_n_n : DotDims S128x8 S8x1 S128x1 where
  lhsContracting := [1]
  rhsContracting := [0]
  lhsNonContracting := [0]
  rhsNonContracting := [1]
  lhsBatch := []
  rhsBatch := []
  wf := dot_S128x8_S8x1_S128x1_1_0_0_1_n_n_wf

class Facts : Prop extends Facts₀ where

variable [Facts]
-- ==== Proof.Layers.lean ====
/-
  The network's layers as whole-array functions over the extended reals, index by index.

  A matrix is a function of a rank-2 index; a bias is a one-row matrix. Three layer forms occur:
  * `dense x w b`      : entry (r, c) is  ∑ₖ x[r,k]·w[k,c] + b[0,c]
  * `denseRelu x w b`  : the same, then the maximum with the value the zero word denotes
  * `twoDenseRelu x w y v b` : max (∑ₖ x[r,k]·w[k,c] + ∑ₖ y[r,k]·v[k,c] + b[0,c]) 0 — two inputs summed before the bias
  `rowOf b` is a length-C vector laid out as the one-row matrix the layers take.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- An r × c array of extended reals, indexed by a rank-2 index. -/
abbrev Mat (r c : Nat) : Type := (⟨2, ![r, c]⟩ : Shape).Idx → EReal
/-- A length-c array of extended reals. -/
abbrev Vec1 (c : Nat) : Type := (⟨1, ![c]⟩ : Shape).Idx → EReal

/-- The extended real the all-zero 32-bit word denotes (it is 0; kept as the word so that both programs' rectifiers
    are read without evaluating it). -/
abbrev z32 : EReal := Ideal.ofBits .f32 0x00000000#32

/-- Row coordinate of a rank-2 index, as a number below the row count. -/
abbrev rowc {r c : Nat} (i : (⟨2, ![r, c]⟩ : Shape).Idx) : Fin r := ⟨(i 0).val, (i 0).isLt⟩
/-- Column coordinate of a rank-2 index, as a number below the column count. -/
abbrev colc {r c : Nat} (i : (⟨2, ![r, c]⟩ : Shape).Idx) : Fin c := ⟨(i 1).val, (i 1).isLt⟩

/-- Entry (r, c) of the matrix product x·w: the sum over the shared axis. -/
def mm {R K C : Nat} (x : Mat R K) (w : Mat K C) (r : Fin R) (c : Fin C) : EReal :=
  ∑ k : Fin K, x (ix2 r k) * w (ix2 k c)

/-- A vector as a one-row matrix. -/
def rowOf {C : Nat} (b : Vec1 C) : Mat 1 C := fun i => b (ix1 (colc i))

/-- x·w plus the bias row. -/
def dense {R K C : Nat} (x : Mat R K) (w : Mat K C) (b : Mat 1 C) : Mat R C :=
  fun i => mm x w (rowc i) (colc i) + b (ix2 (0 : Fin 1) (colc i))

/-- x·w plus the bias row, rectified. -/
def denseRelu {R K C : Nat} (x : Mat R K) (w : Mat K C) (b : Mat 1 C) : Mat R C :=
  fun i => max (mm x w (rowc i) (colc i) + b (ix2 (0 : Fin 1) (colc i))) z32

/-- x·w + y·v plus the bias row, rectified (the two products are added first, then the bias). -/
def twoDenseRelu {R K L C : Nat} (x : Mat R K) (w : Mat K C) (y : Mat R L) (v : Mat L C) (b : Mat 1 C) : Mat R C :=
  fun i => max (mm x w (rowc i) (colc i) + mm y v (rowc i) (colc i) + b (ix2 (0 : Fin 1) (colc i))) z32

end Cert.Gnn

end
-- ==== Proof.NodeEncode.lean ====
import proofs.«418326_j28647431864464_2_alg».proof.Proof.Gen.KernelIdeal.Frame
import proofs.«418326_j28647431864464_2_alg».proof.Proof.Layers
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeEncode

open Cert.KernelIdeal Cert.KernelIdeal.Gen Cert.Gnn

variable (V : (c : Dev nD) → (b : Ref sig .tc) → Buf (Elt Ideal) ((c : Thread nD τ).loc b))

/-- The zero offset vector of a whole-block access, as a constant function. -/
theorem hz : (![0, 0] : Fin 2 → Nat) = fun _ => 0 := funext fun a => by fin_cases a <;> rfl

/-! ## The block product read at an index -/

/-- The left operand's row coordinate is the result's row. -/
theorem lhs_enc_0 (i : S20000x8.Idx) (q : dot_S20000x4_S4x8_S20000x8_1_0_0_1_n_n.contr.Idx) :
    (dot_S20000x4_S4x8_S20000x8_1_0_0_1_n_n.lhsIdx i q 0).val = (i 0).val := by
  unfold DotDims.lhsIdx
  rw [dif_neg (show ¬(0 : Fin S20000x4.rank) ∈ dot_S20000x4_S4x8_S20000x8_1_0_0_1_n_n.lhsBatch by decide), dif_pos (show (0 : Fin S20000x4.rank) ∈ dot_S20000x4_S4x8_S20000x8_1_0_0_1_n_n.lhsNonContracting by decide)]
  rfl
/-- The left operand's column coordinate is the summation index. -/
theorem lhs_enc_1 (i : S20000x8.Idx) (q : dot_S20000x4_S4x8_S20000x8_1_0_0_1_n_n.contr.Idx) :
    (dot_S20000x4_S4x8_S20000x8_1_0_0_1_n_n.lhsIdx i q 1).val = (q ⟨0, by decide⟩).val :=
  dot_S20000x4_S4x8_S20000x8_1_0_0_1_n_n.lhsIdx_val_of_single rfl i q
/-- The right operand's row coordinate is the summation index. -/
theorem rhs_enc_0 (i : S20000x8.Idx) (q : dot_S20000x4_S4x8_S20000x8_1_0_0_1_n_n.contr.Idx) :
    (dot_S20000x4_S4x8_S20000x8_1_0_0_1_n_n.rhsIdx i q 0).val = (q ⟨0, by decide⟩).val :=
  dot_S20000x4_S4x8_S20000x8_1_0_0_1_n_n.rhsIdx_val_of_single rfl i q
/-- The right operand's column coordinate is the result's column. -/
theorem rhs_enc_1 (i : S20000x8.Idx) (q : dot_S20000x4_S4x8_S20000x8_1_0_0_1_n_n.contr.Idx) :
    (dot_S20000x4_S4x8_S20000x8_1_0_0_1_n_n.rhsIdx i q 1).val = (i 1).val := by
  unfold DotDims.rhsIdx
  rw [dif_neg (show ¬(1 : Fin S4x8.rank) ∈ dot_S20000x4_S4x8_S20000x8_1_0_0_1_n_n.rhsBatch by decide), dif_pos (show (1 : Fin S4x8.rank) ∈ dot_S20000x4_S4x8_S20000x8_1_0_0_1_n_n.rhsNonContracting by decide)]
  rfl

/-- Entry (p, q) of a block of rows times the weight, accumulated from zero, is the sum over the four shared
    coordinates of the products. -/
theorem block_product_at (x : FVec Ideal S20000x4 .bf16) (w : FVec Ideal S4x8 .bf16) (p : Fin 20000) (q : Fin 8) :
    matmul (F := Ideal) dot_S20000x4_S4x8_S20000x8_1_0_0_1_n_n none x w (constant (F := Ideal) S20000x8 .f32 0x00000000#32) (ix2 p q)
      = ∑ k : Fin 4, x (ix2 p k) * w (ix2 k q) := by
  show FloatOps.matmul dot_S20000x4_S4x8_S20000x8_1_0_0_1_n_n none x w (constant (F := Ideal) S20000x8 .f32 0x00000000#32) (ix2 p q) = _
  rw [Ideal.matmul_constant_zero_apply, ← Equiv.sum_comp (ValueIdx.contrEquiv1 dot_S20000x4_S4x8_S20000x8_1_0_0_1_n_n 4 rfl rfl).symm]
  refine Finset.sum_congr rfl fun k _ => ?_
  have hk := ValueIdx.contrEquiv1_symm_val dot_S20000x4_S4x8_S20000x8_1_0_0_1_n_n 4 rfl rfl k
  have el : dot_S20000x4_S4x8_S20000x8_1_0_0_1_n_n.lhsIdx (ix2 p q) ((ValueIdx.contrEquiv1 dot_S20000x4_S4x8_S20000x8_1_0_0_1_n_n 4 rfl rfl).symm k) = ix2 p k := funext fun a => Fin.ext (by
    match a with
    | ⟨0, _⟩ => exact lhs_enc_0 _ _
    | ⟨1, _⟩ => exact (lhs_enc_1 _ _).trans hk)
  have er : dot_S20000x4_S4x8_S20000x8_1_0_0_1_n_n.rhsIdx (ix2 p q) ((ValueIdx.contrEquiv1 dot_S20000x4_S4x8_S20000x8_1_0_0_1_n_n 4 rfl rfl).symm k) = ix2 k q := funext fun a => Fin.ext (by
    match a with
    | ⟨0, _⟩ => exact (rhs_enc_0 _ _).trans hk
    | ⟨1, _⟩ => exact rhs_enc_1 _ _)
  rw [el, er]

/-! ## The body's value at an index -/

/-- Entry (p, q) of what the body stores: the block's row p times the weight's column q, plus the bias at q, rectified. -/
theorem body_at (x : Vec Ideal S20000x4 .f32) (w : Vec Ideal S4x8 .f32) (b : Vec Ideal S1x8 .f32) (p : Fin 20000) (q : Fin 8) :
    k0_pay1 (F := Ideal) x w b (ix2 p q) = max ((∑ k : Fin 4, x (ix2 p k) * w (ix2 k q)) + b (ix2 (0 : Fin 1) q)) z32 := by
  unfold k0_pay1
  refine (maximumf_apply _ _ _).trans ?_
  refine congrArg₂ max ?_ rfl
  refine (addf_apply _ _ _).trans ?_
  refine congrArg₂ (· + ·) ?_ ?_
  · exact block_product_at _ _ p q
  · rw [shapeCast_self]
    exact broadcastTo_1b_ab_apply b broadcasts_S1x8_S20000x8 p q

/-! ## Where each window's block sits -/

/-- The index maps over the grid: the feature window moves with the output window along the rows and stays at column
    block 0; the weight and the bias are their one block; the output's row block is below 25, its column block is 0. -/
theorem idx_facts : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every one of the 25 row blocks of the output is some point's. -/
theorem idx_onto : ∀ (r : Fin 25), ∃ t : Fin cfg0.N, win0_3.index t = ![r.val, 0] :=
  (by decide +kernel : ∀ (r : Fin 25), ∃ t : Fin grid0.N, win0_3.index t = ![r.val, 0])

/-- A row of point t's block is a row of the array. -/
theorem row_lt (t : Fin cfg0.N) (p : Fin 20000) : win0_3.index t (0 : Fin 2) * 20000 + p.val < 500000 := by
  have h := (idx_facts t).2.2.2.2.2.2.1
  have hp := p.isLt
  omega

/-- Entry (p, q) of point t's output block is entry (row block × 20000 + p, q) of the array. -/
theorem out_pos (t : Fin cfg0.N) (p : Fin 20000) (q : Fin 8) :
    ((cfg0.win 3).blk t).view.emb (ix2 p q) = ix2 (⟨win0_3.index t (0 : Fin 2) * 20000 + p.val, row_lt t p⟩ : Fin 500000) q := by
  obtain ⟨e0, e1, e2, e3, e4, e5, e6, e7⟩ := idx_facts t
  funext a
  apply Fin.ext
  match a with
  | ⟨0, _⟩ => show win0_3.index t (0 : Fin 2) * 20000 + 1 * p.val = win0_3.index t (0 : Fin 2) * 20000 + p.val; omega
  | ⟨1, _⟩ => show win0_3.index t (1 : Fin 2) * 8 + 1 * q.val = q.val; omega

/-- Entry (p, k) of point t's feature block is entry (row block × 20000 + p, k) of the feature array. -/
theorem feat_block_at (c : Dev nD) (t : Fin cfg0.N) (p : Fin 20000) (k : Fin 4) :
    (iblk0 V c 0 t : Vec Ideal S20000x4 .f32) (ix2 p k)
      = (V c main_arg0 : S500000x4.Idx → EReal) (ix2 (⟨win0_3.index t (0 : Fin 2) * 20000 + p.val, row_lt t p⟩ : Fin 500000) k) := by
  obtain ⟨e0, e1, e2, e3, e4, e5, e6, e7⟩ := idx_facts t
  unfold iblk0
  rw [View.read_apply]
  show V c main_arg0 _ = V c main_arg0 _
  congr 1
  funext a
  apply Fin.ext
  match a with
  | ⟨0, _⟩ => show win0_0.index t (0 : Fin 2) * 20000 + 1 * p.val = win0_3.index t (0 : Fin 2) * 20000 + p.val; omega
  | ⟨1, _⟩ => show win0_0.index t (1 : Fin 2) * 4 + 1 * k.val = k.val; omega

/-- The weight window's block is the weight. -/
theorem weight_block_at (c : Dev nD) (t : Fin cfg0.N) (k : Fin 4) (q : Fin 8) :
    (iblk0 V c 1 t : Vec Ideal S4x8 .f32) (ix2 k q) = (V c main_arg7 : S4x8.Idx → EReal) (ix2 k q) := by
  obtain ⟨e0, e1, e2, e3, e4, e5, e6, e7⟩ := idx_facts t
  unfold iblk0
  rw [View.read_apply]
  show V c main_arg7 _ = V c main_arg7 _
  congr 1
  funext a
  apply Fin.ext
  match a with
  | ⟨0, _⟩ => show win0_1.index t (0 : Fin 2) * 4 + 1 * k.val = k.val; omega
  | ⟨1, _⟩ => show win0_1.index t (1 : Fin 2) * 8 + 1 * q.val = q.val; omega

/-- The bias window's block is the bias row. -/
theorem bias_block_at (c : Dev nD) (t : Fin cfg0.N) (q : Fin 8) :
    (iblk0 V c 2 t : Vec Ideal S1x8 .f32) (ix2 (0 : Fin 1) q) = (V c main_v0 : S1x8.Idx → EReal) (ix2 (0 : Fin 1) q) := by
  obtain ⟨e0, e1, e2, e3, e4, e5, e6, e7⟩ := idx_facts t
  unfold iblk0
  rw [View.read_apply]
  show V c main_v0 _ = V c main_v0 _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 8 + 1 * q.val = q.val; omega

/-- What point t writes back is its block of the layer applied to the whole arrays. -/
theorem flushed_eq (c : Dev nD) (t : Fin cfg0.N) :
    (dat0 (F := Ideal) V c).flushed 3 t = ((cfg0.win 3).blk t).view.read (Elt Ideal)
      (denseRelu (R := 500000) (K := 4) (C := 8) (V c main_arg0) (V c main_arg7) (V c main_v0)) := by
  show (cfg0.win 3).cut (grid0.coords t) ((dat0 (F := Ideal) V c).after 3 t) = _
  rw [after0_3]
  unfold out0_3
  rw [View.canon_unit_zero hz]
  simp only [View.ld_unit_zero (S := S20000x4) hz, View.ld_unit_zero (S := S4x8) hz, View.ld_unit_zero (S := S1x8) hz]
  funext j
  obtain ⟨p, q, rfl⟩ : ∃ (p : Fin 20000) (q : Fin 8), j = ix2 p q := ⟨j 0, j 1, eq_ix2 j⟩
  refine (body_at _ _ _ p q).trans ?_
  rw [View.read_apply]
  refine Eq.trans ?_ (congrArg (denseRelu (R := 500000) (K := 4) (C := 8) (V c main_arg0) (V c main_arg7) (V c main_v0)) (out_pos t p q).symm)
  unfold denseRelu mm
  simp only [feat_block_at, weight_block_at, bias_block_at]

/-! ## From the blocks to the array -/

/-- An index of the output array is in point t's block iff each coordinate is in the block's range on its axis. -/
theorem mem_blk (t : Fin cfg0.N) (i : S500000x8.Idx) :
    i ∈ ((cfg0.win 3).blk t).view.set ↔ ∀ a : Fin 2, win0_3.index t a * S20000x8.size a ≤ (i a).val ∧ (i a).val < win0_3.index t a * S20000x8.size a + S20000x8.size a := by
  show i ∈ ((View.whole main_v1).slice (win0_3.rect t)).set ↔ _
  rw [View.set_slice_whole, Rect.mem_set_unit]
  exact Iff.rfl

/-- Every index of the output array is in the block of the point whose row block is its row divided by 20000. -/
theorem cover (i : S500000x8.Idx) :
    ∃ t : Fin cfg0.N, (cfg0.win 3).flush t = true ∧ i ∈ ((cfg0.win 3).blk t).view.set := by
  have hi0 : (i 0).val < 500000 := (i 0).isLt
  have hi1 : (i 1).val < 8 := (i 1).isLt
  obtain ⟨t, ht⟩ := idx_onto ⟨(i 0).val / 20000, by omega⟩
  have q0 : win0_3.index t (0 : Fin 2) = (i 0).val / 20000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 20000 ≤ (i 0).val ∧ (i 0).val < win0_3.index t (0 : Fin 2) * 20000 + 20000; omega
  | ⟨1, _⟩ => show win0_3.index t (1 : Fin 2) * 8 ≤ (i 1).val ∧ (i 1).val < win0_3.index t (1 : Fin 2) * 8 + 8; omega

/-- The output array after the region is the rectified dense layer of the node features, the weight and the bias row. -/
theorem array_eq (c : Dev nD) :
    (dat0 (F := Ideal) V c).arrAt 3 cfg0.N
      = denseRelu (R := 500000) (K := 4) (C := 8) (V c main_arg0) (V c main_arg7) (V c main_v0) :=
  (dat0 (F := Ideal) V c).arrAt_eq_of_cover 3 _ (fun t _ => flushed_eq V c t) cover

end Cert.KernelIdeal.NodeEncode

end
-- ==== Proof.EdgeBlock.lean ====
import proofs.«418326_j28647431864464_2_alg».proof.Proof.Gen.KernelIdeal.Frame
import proofs.«418326_j28647431864464_2_alg».proof.Proof.Layers
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeBlock

open Cert.KernelIdeal Cert.KernelIdeal.Gen Cert.Gnn
open scoped BigOperators

/-- The zero offsets of a whole-buffer access, as the constant function. -/
theorem hz : (![0, 0] : Fin 2 → Nat) = fun _ => 0 := funext fun a => by fin_cases a <;> rfl

/-! ### The product 10000×2 by 2×4: operand indices, and the product at an index -/

theorem mmEdge_lhs_0 (i : S10000x4.Idx) (q : dot_S10000x2_S2x4_S10000x4_1_0_0_1_n_n.contr.Idx) :
    (dot_S10000x2_S2x4_S10000x4_1_0_0_1_n_n.lhsIdx i q 0).val = (i 0).val := by
  unfold DotDims.lhsIdx
  rw [dif_neg (show ¬(0 : Fin S10000x2.rank) ∈ dot_S10000x2_S2x4_S10000x4_1_0_0_1_n_n.lhsBatch by decide), dif_pos (show (0 : Fin S10000x2.rank) ∈ dot_S10000x2_S2x4_S10000x4_1_0_0_1_n_n.lhsNonContracting by decide)]
  rfl
theorem mmEdge_lhs_1 (i : S10000x4.Idx) (q : dot_S10000x2_S2x4_S10000x4_1_0_0_1_n_n.contr.Idx) :
    (dot_S10000x2_S2x4_S10000x4_1_0_0_1_n_n.lhsIdx i q 1).val = (q ⟨0, by decide⟩).val :=
  dot_S10000x2_S2x4_S10000x4_1_0_0_1_n_n.lhsIdx_val_of_single rfl i q
theorem mmEdge_rhs_0 (i : S10000x4.Idx) (q : dot_S10000x2_S2x4_S10000x4_1_0_0_1_n_n.contr.Idx) :
    (dot_S10000x2_S2x4_S10000x4_1_0_0_1_n_n.rhsIdx i q 0).val = (q ⟨0, by decide⟩).val :=
  dot_S10000x2_S2x4_S10000x4_1_0_0_1_n_n.rhsIdx_val_of_single rfl i q
theorem mmEdge_rhs_1 (i : S10000x4.Idx) (q : dot_S10000x2_S2x4_S10000x4_1_0_0_1_n_n.contr.Idx) :
    (dot_S10000x2_S2x4_S10000x4_1_0_0_1_n_n.rhsIdx i q 1).val = (i 1).val := by
  unfold DotDims.rhsIdx
  rw [dif_neg (show ¬(1 : Fin S2x4.rank) ∈ dot_S10000x2_S2x4_S10000x4_1_0_0_1_n_n.rhsBatch by decide), dif_pos (show (1 : Fin S2x4.rank) ∈ dot_S10000x2_S2x4_S10000x4_1_0_0_1_n_n.rhsNonContracting by decide)]
  rfl

/-- Entry (p, q) of the matrix unit's product into a zero accumulator is the sum over the shared axis. -/
theorem mmEdge_apply (x : FVec Ideal S10000x2 .bf16) (w : FVec Ideal S2x4 .bf16) (p : Fin 10000) (q : Fin 4) :
    matmul (F := Ideal) dot_S10000x2_S2x4_S10000x4_1_0_0_1_n_n none x w (constant (F := Ideal) S10000x4 .f32 0x00000000#32) (ix2 p q)
      = ∑ k : Fin 2, x (ix2 p k) * w (ix2 k q) := by
  refine (Ideal.matmul_constant_zero_apply dot_S10000x2_S2x4_S10000x4_1_0_0_1_n_n none x w (ix2 p q)).trans ?_
  rw [← Equiv.sum_comp (ValueIdx.contrEquiv1 dot_S10000x2_S2x4_S10000x4_1_0_0_1_n_n 2 rfl rfl).symm]
  refine Finset.sum_congr rfl fun k _ => ?_
  have hk := ValueIdx.contrEquiv1_symm_val dot_S10000x2_S2x4_S10000x4_1_0_0_1_n_n 2 rfl rfl k
  have el : dot_S10000x2_S2x4_S10000x4_1_0_0_1_n_n.lhsIdx (ix2 p q) ((ValueIdx.contrEquiv1 dot_S10000x2_S2x4_S10000x4_1_0_0_1_n_n 2 rfl rfl).symm k) = ix2 p k := funext fun a => Fin.ext (by
    match a with
    | ⟨0, _⟩ => exact mmEdge_lhs_0 _ _
    | ⟨1, _⟩ => exact (mmEdge_lhs_1 _ _).trans hk)
  have er : dot_S10000x2_S2x4_S10000x4_1_0_0_1_n_n.rhsIdx (ix2 p q) ((ValueIdx.contrEquiv1 dot_S10000x2_S2x4_S10000x4_1_0_0_1_n_n 2 rfl rfl).symm k) = ix2 k q := funext fun a => Fin.ext (by
    match a with
    | ⟨0, _⟩ => exact (mmEdge_rhs_0 _ _).trans hk
    | ⟨1, _⟩ => exact mmEdge_rhs_1 _ _)
  rw [el, er]

/-! ### The product 10000×4 by 4×8: operand indices, and the product at an index -/

theorem mmHid_lhs_0 (i : S10000x8.Idx) (q : dot_S10000x4_S4x8_S10000x8_1_0_0_1_n_n.contr.Idx) :
    (dot_S10000x4_S4x8_S10000x8_1_0_0_1_n_n.lhsIdx i q 0).val = (i 0).val := by
  unfold DotDims.lhsIdx
  rw [dif_neg (show ¬(0 : Fin S10000x4.rank) ∈ dot_S10000x4_S4x8_S10000x8_1_0_0_1_n_n.lhsBatch by decide), dif_pos (show (0 : Fin S10000x4.rank) ∈ dot_S10000x4_S4x8_S10000x8_1_0_0_1_n_n.lhsNonContracting by decide)]
  rfl
theorem mmHid_lhs_1 (i : S10000x8.Idx) (q : dot_S10000x4_S4x8_S10000x8_1_0_0_1_n_n.contr.Idx) :
    (dot_S10000x4_S4x8_S10000x8_1_0_0_1_n_n.lhsIdx i q 1).val = (q ⟨0, by decide⟩).val :=
  dot_S10000x4_S4x8_S10000x8_1_0_0_1_n_n.lhsIdx_val_of_single rfl i q
theorem mmHid_rhs_0 (i : S10000x8.Idx) (q : dot_S10000x4_S4x8_S10000x8_1_0_0_1_n_n.contr.Idx) :
    (dot_S10000x4_S4x8_S10000x8_1_0_0_1_n_n.rhsIdx i q 0).val = (q ⟨0, by decide⟩).val :=
  dot_S10000x4_S4x8_S10000x8_1_0_0_1_n_n.rhsIdx_val_of_single rfl i q
theorem mmHid_rhs_1 (i : S10000x8.Idx) (q : dot_S10000x4_S4x8_S10000x8_1_0_0_1_n_n.contr.Idx) :
    (dot_S10000x4_S4x8_S10000x8_1_0_0_1_n_n.rhsIdx i q 1).val = (i 1).val := by
  unfold DotDims.rhsIdx
  rw [dif_neg (show ¬(1 : Fin S4x8.rank) ∈ dot_S10000x4_S4x8_S10000x8_1_0_0_1_n_n.rhsBatch by decide), dif_pos (show (1 : Fin S4x8.rank) ∈ dot_S10000x4_S4x8_S10000x8_1_0_0_1_n_n.rhsNonContracting by decide)]
  rfl

/-- Entry (p, q) of the matrix unit's product into a zero accumulator is the sum over the shared axis. -/
theorem mmHid_apply (x : FVec Ideal S10000x4 .bf16) (w : FVec Ideal S4x8 .bf16) (p : Fin 10000) (q : Fin 8) :
    matmul (F := Ideal) dot_S10000x4_S4x8_S10000x8_1_0_0_1_n_n none x w (constant (F := Ideal) S10000x8 .f32 0x00000000#32) (ix2 p q)
      = ∑ k : Fin 4, x (ix2 p k) * w (ix2 k q) := by
  refine (Ideal.matmul_constant_zero_apply dot_S10000x4_S4x8_S10000x8_1_0_0_1_n_n none x w (ix2 p q)).trans ?_
  rw [← Equiv.sum_comp (ValueIdx.contrEquiv1 dot_S10000x4_S4x8_S10000x8_1_0_0_1_n_n 4 rfl rfl).symm]
  refine Finset.sum_congr rfl fun k _ => ?_
  have hk := ValueIdx.contrEquiv1_symm_val dot_S10000x4_S4x8_S10000x8_1_0_0_1_n_n 4 rfl rfl k
  have el : dot_S10000x4_S4x8_S10000x8_1_0_0_1_n_n.lhsIdx (ix2 p q) ((ValueIdx.contrEquiv1 dot_S10000x4_S4x8_S10000x8_1_0_0_1_n_n 4 rfl rfl).symm k) = ix2 p k := funext fun a => Fin.ext (by
    match a with
    | ⟨0, _⟩ => exact mmHid_lhs_0 _ _
    | ⟨1, _⟩ => exact (mmHid_lhs_1 _ _).trans hk)
  have er : dot_S10000x4_S4x8_S10000x8_1_0_0_1_n_n.rhsIdx (ix2 p q) ((ValueIdx.contrEquiv1 dot_S10000x4_S4x8_S10000x8_1_0_0_1_n_n 4 rfl rfl).symm k) = ix2 k q := funext fun a => Fin.ext (by
    match a with
    | ⟨0, _⟩ => exact (mmHid_rhs_0 _ _).trans hk
    | ⟨1, _⟩ => exact mmHid_rhs_1 _ _)
  rw [el, er]

/-! ### The product 10000×8 by 8×8: operand indices, and the product at an index -/

theorem mmSend_lhs_0 (i : S10000x8.Idx) (q : dot_S10000x8_S8x8_S10000x8_1_0_0_1_n_n.contr.Idx) :
    (dot_S10000x8_S8x8_S10000x8_1_0_0_1_n_n.lhsIdx i q 0).val = (i 0).val := by
  unfold DotDims.lhsIdx
  rw [dif_neg (show ¬(0 : Fin S10000x8.rank) ∈ dot_S10000x8_S8x8_S10000x8_1_0_0_1_n_n.lhsBatch by decide), dif_pos (show (0 : Fin S10000x8.rank) ∈ dot_S10000x8_S8x8_S10000x8_1_0_0_1_n_n.lhsNonContracting by decide)]
  rfl
theorem mmSend_lhs_1 (i : S10000x8.Idx) (q : dot_S10000x8_S8x8_S10000x8_1_0_0_1_n_n.contr.Idx) :
    (dot_S10000x8_S8x8_S10000x8_1_0_0_1_n_n.lhsIdx i q 1).val = (q ⟨0, by decide⟩).val :=
  dot_S10000x8_S8x8_S10000x8_1_0_0_1_n_n.lhsIdx_val_of_single rfl i q
theorem mmSend_rhs_0 (i : S10000x8.Idx) (q : dot_S10000x8_S8x8_S10000x8_1_0_0_1_n_n.contr.Idx) :
    (dot_S10000x8_S8x8_S10000x8_1_0_0_1_n_n.rhsIdx i q 0).val = (q ⟨0, by decide⟩).val :=
  dot_S10000x8_S8x8_S10000x8_1_0_0_1_n_n.rhsIdx_val_of_single rfl i q
theorem mmSend_rhs_1 (i : S10000x8.Idx) (q : dot_S10000x8_S8x8_S10000x8_1_0_0_1_n_n.contr.Idx) :
    (dot_S10000x8_S8x8_S10000x8_1_0_0_1_n_n.rhsIdx i q 1).val = (i 1).val := by
  unfold DotDims.rhsIdx
  rw [dif_neg (show ¬(1 : Fin S8x8.rank) ∈ dot_S10000x8_S8x8_S10000x8_1_0_0_1_n_n.rhsBatch by decide), dif_pos (show (1 : Fin S8x8.rank) ∈ dot_S10000x8_S8x8_S10000x8_1_0_0_1_n_n.rhsNonContracting by decide)]
  rfl

/-- Entry (p, q) of the matrix unit's product into a zero accumulator is the sum over the shared axis. -/
theorem mmSend_apply (x : FVec Ideal S10000x8 .bf16) (w : FVec Ideal S8x8 .bf16) (p : Fin 10000) (q : Fin 8) :
    matmul (F := Ideal) dot_S10000x8_S8x8_S10000x8_1_0_0_1_n_n none x w (constant (F := Ideal) S10000x8 .f32 0x00000000#32) (ix2 p q)
      = ∑ k : Fin 8, x (ix2 p k) * w (ix2 k q) := by
  refine (Ideal.matmul_constant_zero_apply dot_S10000x8_S8x8_S10000x8_1_0_0_1_n_n none x w (ix2 p q)).trans ?_
  rw [← Equiv.sum_comp (ValueIdx.contrEquiv1 dot_S10000x8_S8x8_S10000x8_1_0_0_1_n_n 8 rfl rfl).symm]
  refine Finset.sum_congr rfl fun k _ => ?_
  have hk := ValueIdx.contrEquiv1_symm_val dot_S10000x8_S8x8_S10000x8_1_0_0_1_n_n 8 rfl rfl k
  have el : dot_S10000x8_S8x8_S10000x8_1_0_0_1_n_n.lhsIdx (ix2 p q) ((ValueIdx.contrEquiv1 dot_S10000x8_S8x8_S10000x8_1_0_0_1_n_n 8 rfl rfl).symm k) = ix2 p k := funext fun a => Fin.ext (by
    match a with
    | ⟨0, _⟩ => exact mmSend_lhs_0 _ _
    | ⟨1, _⟩ => exact (mmSend_lhs_1 _ _).trans hk)
  have er : dot_S10000x8_S8x8_S10000x8_1_0_0_1_n_n.rhsIdx (ix2 p q) ((ValueIdx.contrEquiv1 dot_S10000x8_S8x8_S10000x8_1_0_0_1_n_n 8 rfl rfl).symm k) = ix2 k q := funext fun a => Fin.ext (by
    match a with
    | ⟨0, _⟩ => exact (mmSend_rhs_0 _ _).trans hk
    | ⟨1, _⟩ => exact mmSend_rhs_1 _ _)
  rw [el, er]

/-! ### The body's arithmetic at one entry of its output block -/

/-- Entry (p, q) of what the body stores, from its seven loaded blocks: the rectified first layer of row p,
    times the hidden weights, plus the gathered row times the sender weights, plus the bias, rectified. -/
theorem pay_apply (v0 : Vec Ideal S10000x2 .f32) (v2 : Vec Ideal S2x4 .f32) (v5 : Vec Ideal S1x4 .f32)
    (v11 : Vec Ideal S10000x8 .f32) (v14 : Vec Ideal S8x8 .f32) (v16 : Vec Ideal S4x8 .f32) (v22 : Vec Ideal S1x8 .f32)
    (p : Fin 10000) (q : Fin 8) :
    k1_pay1 (F := Ideal) v0 v2 v5 v11 v14 v16 v22 (ix2 p q)
      = max ((∑ k : Fin 4, max ((∑ j : Fin 2, v0 (ix2 p j) * v2 (ix2 j k)) + v5 (ix2 (0 : Fin 1) k)) z32 * v16 (ix2 k q))
            + (∑ k : Fin 8, v11 (ix2 p k) * v14 (ix2 k q)) + v22 (ix2 (0 : Fin 1) q)) z32 := by
  unfold k1_pay1
  simp only [maximumf_apply, addf_apply, broadcast_apply, truncf_apply, shapeCast_self, broadcastTo_1b_ab_apply,
    mmEdge_apply, mmHid_apply, mmSend_apply]
  rfl

/-! ### Where each window's block sits, decided once over the grid -/

/-- At every grid point the two row-blocked inputs and the output are at the point's own row block, column block 0;
    the weight and bias windows are at block (0, 0). -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The array row that row p of the block at point t is. -/
def rowAt (t : Fin cfg1.N) (p : Fin 10000) : Fin 10000000 :=
  ⟨t.val * 10000 + p.val, by have ht : t.val < 1000 := lt_of_lt_of_eq t.isLt N_1; have := p.isLt; omega⟩

/-! ### Each loaded block, read where the grid point puts it in its array -/

variable (V : (c : Dev nD) → (b : Ref sig .tc) → Buf (Elt Ideal) ((c : Thread nD τ).loc b))

/-- Row p of the edge-feature block at point t is row t·10000 + p of the edge features. -/
theorem blk0_apply (c : Dev nD) (t : Fin cfg1.N) (p : Fin 10000) (k : Fin 2) :
    iblk1 V c 0 t (ix2 (n0 := 10000) (n1 := 2) p k) = V c main_arg1 (ix2 (rowAt t p) k) := by
  have h := idx_facts t
  show V c main_arg1 (((cfg1.win 0).blk t).view.emb (ix2 (n0 := 10000) (n1 := 2) p k)) = _
  refine congrArg (V c main_arg1) ?_
  funext a; apply Fin.ext
  match a with
  | ⟨0, _⟩ => show win1_0.index t (0 : Fin 2) * 10000 + 1 * p.val = t.val * 10000 + p.val; omega
  | ⟨1, _⟩ => show win1_0.index t (1 : Fin 2) * 2 + 1 * k.val = k.val; omega

/-- Row p of the gathered-sender block at point t is row t·10000 + p of the gathered rows. -/
theorem blk1_apply (c : Dev nD) (t : Fin cfg1.N) (p : Fin 10000) (k : Fin 8) :
    iblk1 V c 1 t (ix2 (n0 := 10000) (n1 := 8) p k) = V c main_v2 (ix2 (rowAt t p) k) := by
  have h := idx_facts t
  show V c main_v2 (((cfg1.win 1).blk t).view.emb (ix2 (n0 := 10000) (n1 := 8) p k)) = _
  refine congrArg (V c main_v2) ?_
  funext a; apply Fin.ext
  match a with
  | ⟨0, _⟩ => show win1_1.index t (0 : Fin 2) * 10000 + 1 * p.val = t.val * 10000 + p.val; omega
  | ⟨1, _⟩ => show win1_1.index t (1 : Fin 2) * 8 + 1 * k.val = k.val; omega

/-- The first layer's weight block is the whole weight matrix. -/
theorem blk2_apply (c : Dev nD) (t : Fin cfg1.N) (j : Fin 2) (k : Fin 4) :
    iblk1 V c 2 t (ix2 (n0 := 2) (n1 := 4) j k) = V c main_arg5 (ix2 j k) := by
  have h := idx_facts t
  show V c main_arg5 (((cfg1.win 2).blk t).view.emb (ix2 (n0 := 2) (n1 := 4) j k)) = _
  refine congrArg (V c main_arg5) ?_
  funext a; apply Fin.ext
  match a with
  | ⟨0, _⟩ => show win1_2.index t (0 : Fin 2) * 2 + 1 * j.val = j.val; omega
  | ⟨1, _⟩ => show win1_2.index t (1 : Fin 2) * 4 + 1 * k.val = k.val; omega

/-- The first layer's bias block is the whole bias row. -/
theorem blk3_apply (c : Dev nD) (t : Fin cfg1.N) (j : Fin 1) (k : Fin 4) :
    iblk1 V c 3 t (ix2 (n0 := 1) (n1 := 4) j k) = V c main_v3 (ix2 j k) := by
  have h := idx_facts t
  show V c main_v3 (((cfg1.win 3).blk t).view.emb (ix2 (n0 := 1) (n1 := 4) j k)) = _
  refine congrArg (V c main_v3) ?_
  funext a; apply Fin.ext
  match a with
  | ⟨0, _⟩ => show win1_3.index t (0 : Fin 2) * 1 + 1 * j.val = j.val; omega
  | ⟨1, _⟩ => show win1_3.index t (1 : Fin 2) * 4 + 1 * k.val = k.val; omega

/-- The hidden weight block is the whole matrix. -/
theorem blk4_apply (c : Dev nD) (t : Fin cfg1.N) (j : Fin 4) (k : Fin 8) :
    iblk1 V c 4 t (ix2 (n0 := 4) (n1 := 8) j k) = V c main_arg9 (ix2 j k) := by
  have h := idx_facts t
  show V c main_arg9 (((cfg1.win 4).blk t).view.emb (ix2 (n0 := 4) (n1 := 8) j k)) = _
  refine congrArg (V c main_arg9) ?_
  funext a; apply Fin.ext
  match a with
  | ⟨0, _⟩ => show win1_4.index t (0 : Fin 2) * 4 + 1 * j.val = j.val; omega
  | ⟨1, _⟩ => show win1_4.index t (1 : Fin 2) * 8 + 1 * k.val = k.val; omega

/-- The sender weight block is the whole matrix. -/
theorem blk5_apply (c : Dev nD) (t : Fin cfg1.N) (j : Fin 8) (k : Fin 8) :
    iblk1 V c 5 t (ix2 (n0 := 8) (n1 := 8) j k) = V c main_arg10 (ix2 j k) := by
  have h := idx_facts t
  show V c main_arg10 (((cfg1.win 5).blk t).view.emb (ix2 (n0 := 8) (n1 := 8) j k)) = _
  refine congrArg (V c main_arg10) ?_
  funext a; apply Fin.ext
  match a with
  | ⟨0, _⟩ => show win1_5.index t (0 : Fin 2) * 8 + 1 * j.val = j.val; omega
  | ⟨1, _⟩ => show win1_5.index t (1 : Fin 2) * 8 + 1 * k.val = k.val; omega

/-- The second layer's bias block is the whole bias row. -/
theorem blk6_apply (c : Dev nD) (t : Fin cfg1.N) (j : Fin 1) (k : Fin 8) :
    iblk1 V c 6 t (ix2 (n0 := 1) (n1 := 8) j k) = V c main_v4 (ix2 j k) := by
  have h := idx_facts t
  show V c main_v4 (((cfg1.win 6).blk t).view.emb (ix2 (n0 := 1) (n1 := 8) j k)) = _
  refine congrArg (V c main_v4) ?_
  funext a; apply Fin.ext
  match a with
  | ⟨0, _⟩ => show win1_6.index t (0 : Fin 2) * 1 + 1 * j.val = j.val; omega
  | ⟨1, _⟩ => show win1_6.index t (1 : Fin 2) * 8 + 1 * k.val = k.val; omega

/-- Entry (p, q) of the output block at point t sits at row t·10000 + p, column q of the output array. -/
theorem emb7 (t : Fin cfg1.N) (p : Fin 10000) (q : Fin 8) :
    ((cfg1.win 7).blk t).view.emb (ix2 (n0 := 10000) (n1 := 8) p q) = ix2 (rowAt t p) q := by
  have h := idx_facts t
  funext a; apply Fin.ext
  match a with
  | ⟨0, _⟩ => show win1_7.index t (0 : Fin 2) * 10000 + 1 * p.val = t.val * 10000 + p.val; omega
  | ⟨1, _⟩ => show win1_7.index t (1 : Fin 2) * 8 + 1 * q.val = q.val; omega

/-! ### From the blocks to the array -/

/-- The edge layer's result as one function of the arrays the region finds: both dense layers over the whole arrays. -/
abbrev edgeOut (c : Dev nD) : Mat 10000000 8 :=
  twoDenseRelu (R := 10000000) (K := 4) (L := 8) (C := 8)
    (denseRelu (R := 10000000) (K := 2) (C := 4) (V c main_arg1) (V c main_arg5) (V c main_v3))
    (V c main_arg9) (V c main_v2) (V c main_arg10) (V c main_v4)

/-- The rectified first layer at row r, column k, written out: what the second layer's first product sums over. -/
theorem first_layer_row (ef : Mat 10000000 2) (We : Mat 2 4) (be : Mat 1 4) (r : Fin 10000000) (k : Fin 4) :
    denseRelu ef We be (ix2 r k) = max ((∑ j : Fin 2, ef (ix2 r j) * We (ix2 j k)) + be (ix2 (0 : Fin 1) k)) z32 := rfl

/-- What point t writes back is block t of the edge layer's result. -/
theorem flushed_eq (c : Dev nD) (t : Fin cfg1.N) :
    (dat1 (F := Ideal) V c).flushed 7 t = ((cfg1.win 7).blk t).view.read (Elt Ideal) (edgeOut V c) := by
  show (cfg1.win 7).cut (grid1.coords t) ((dat1 (F := Ideal) V c).after 7 t) = _
  rw [after1_7]
  unfold out1_7
  rw [View.canon_unit_zero hz]
  simp only [View.ld_unit_zero (S := S10000x2) hz, View.ld_unit_zero (S := S2x4) hz, View.ld_unit_zero (S := S1x4) hz,
    View.ld_unit_zero (S := S10000x8) hz, View.ld_unit_zero (S := S8x8) hz, View.ld_unit_zero (S := S4x8) hz,
    View.ld_unit_zero (S := S1x8) hz]
  funext j
  obtain ⟨p, q, rfl⟩ : ∃ (p : Fin 10000) (q : Fin 8), j = ix2 (n0 := 10000) (n1 := 8) p q := ⟨j 0, j 1, eq_ix2 (n0 := 10000) (n1 := 8) j⟩
  show k1_pay1 (F := Ideal) (iblk1 V c 0 t) (iblk1 V c 2 t) (iblk1 V c 3 t) (iblk1 V c 1 t) (iblk1 V c 5 t) (iblk1 V c 4 t) (iblk1 V c 6 t) (ix2 (n0 := 10000) (n1 := 8) p q)
    = edgeOut V c (((cfg1.win 7).blk t).view.emb (ix2 (n0 := 10000) (n1 := 8) p q))
  refine ((pay_apply _ _ _ _ _ _ _ p q).trans ?_).trans (congrArg (edgeOut V c) (emb7 t p q)).symm
  simp only [blk0_apply, blk1_apply, blk2_apply, blk3_apply, blk4_apply, blk5_apply, blk6_apply]
  rfl

/-- An index of the output array is in point t's block iff each coordinate is in the block's range on its axis. -/
theorem mem_blk (t : Fin cfg1.N) (i : S10000000x8.Idx) :
    i ∈ ((cfg1.win 7).blk t).view.set ↔ ∀ a : Fin 2, win1_7.index t a * S10000x8.size a ≤ (i a).val ∧ (i a).val < win1_7.index t a * S10000x8.size a + S10000x8.size a := by
  show i ∈ ((View.whole main_v5).slice (win1_7.rect t)).set ↔ _
  rw [View.set_slice_whole, Rect.mem_set_unit]
  exact Iff.rfl

/-- Every index of the output array is in the block of the point its row divided by the block height names,
    and every point writes its block back. -/
theorem cover (i : S10000000x8.Idx) :
    ∃ t : Fin cfg1.N, (cfg1.win 7).flush t = true ∧ i ∈ ((cfg1.win 7).blk t).view.set := by
  have hi0 : (i 0).val < 10000000 := (i 0).isLt
  have hi1 : (i 1).val < 8 := (i 1).isLt
  have hN : cfg1.N = 1000 := N_1
  have ht : (i 0).val / 10000 < cfg1.N := by rw [hN]; omega
  obtain ⟨e0, e1, -⟩ := idx_facts ⟨(i 0).val / 10000, ht⟩
  refine ⟨⟨(i 0).val / 10000, ht⟩, flush1_7 _, ?_⟩
  rw [mem_blk]
  intro a
  match a with
  | ⟨0, _⟩ =>
    show win1_7.index ⟨(i 0).val / 10000, ht⟩ (0 : Fin 2) * 10000 ≤ (i 0).val ∧ (i 0).val < win1_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, ht⟩ (1 : Fin 2) * 8 ≤ (i 1).val ∧ (i 1).val < win1_7.index ⟨(i 0).val / 10000, ht⟩ (1 : Fin 2) * 8 + 8
    rw [e1]; omega

/-- The output array after the region is the edge layer's result over the whole arrays: every point writes back its
    block of that result, and the blocks cover the array. -/
theorem array_eq (c : Dev nD) :
    (dat1 (F := Ideal) V c).arrAt 7 cfg1.N
      = twoDenseRelu (R := 10000000) (K := 4) (L := 8) (C := 8)
          (denseRelu (R := 10000000) (K := 2) (C := 4) (V c main_arg1) (V c main_arg5) (V c main_v3))
          (V c main_arg9) (V c main_v2) (V c main_arg10) (V c main_v4) :=
  (dat1 (F := Ideal) V c).arrAt_eq_of_cover 7 (edgeOut V c) (fun t _ => flushed_eq V c t) cover

end Cert.KernelIdeal.EdgeBlock

end
-- ==== Proof.NodeHidden.lean ====
import proofs.«418326_j28647431864464_2_alg».proof.Proof.Gen.KernelIdeal.Frame
import proofs.«418326_j28647431864464_2_alg».proof.Proof.Layers
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeHidden

open Cert.KernelIdeal Cert.KernelIdeal.Gen Cert.Gnn
open scoped BigOperators

/-- The offset of a whole-block access: zero on both axes. -/
theorem hz : (![0, 0] : Fin 2 → Nat) = fun _ => 0 := funext fun a => by fin_cases a <;> rfl

/-! ## The 8-column product: which operand entries an output entry reads -/

theorem lhs_sq_0 (i : S10000x8.Idx) (q : dot_S10000x8_S8x8_S10000x8_1_0_0_1_n_n.contr.Idx) :
    (dot_S10000x8_S8x8_S10000x8_1_0_0_1_n_n.lhsIdx i q 0).val = (i 0).val := by
  unfold DotDims.lhsIdx
  rw [dif_neg (show ¬(0 : Fin S10000x8.rank) ∈ dot_S10000x8_S8x8_S10000x8_1_0_0_1_n_n.lhsBatch by decide), dif_pos (show (0 : Fin S10000x8.rank) ∈ dot_S10000x8_S8x8_S10000x8_1_0_0_1_n_n.lhsNonContracting by decide)]
  rfl
theorem lhs_sq_1 (i : S10000x8.Idx) (q : dot_S10000x8_S8x8_S10000x8_1_0_0_1_n_n.contr.Idx) :
    (dot_S10000x8_S8x8_S10000x8_1_0_0_1_n_n.lhsIdx i q 1).val = (q ⟨0, by decide⟩).val :=
  dot_S10000x8_S8x8_S10000x8_1_0_0_1_n_n.lhsIdx_val_of_single rfl i q
theorem rhs_sq_0 (i : S10000x8.Idx) (q : dot_S10000x8_S8x8_S10000x8_1_0_0_1_n_n.contr.Idx) :
    (dot_S10000x8_S8x8_S10000x8_1_0_0_1_n_n.rhsIdx i q 0).val = (q ⟨0, by decide⟩).val :=
  dot_S10000x8_S8x8_S10000x8_1_0_0_1_n_n.rhsIdx_val_of_single rfl i q
theorem rhs_sq_1 (i : S10000x8.Idx) (q : dot_S10000x8_S8x8_S10000x8_1_0_0_1_n_n.contr.Idx) :
    (dot_S10000x8_S8x8_S10000x8_1_0_0_1_n_n.rhsIdx i q 1).val = (i 1).val := by
  unfold DotDims.rhsIdx
  rw [dif_neg (show ¬(1 : Fin S8x8.rank) ∈ dot_S10000x8_S8x8_S10000x8_1_0_0_1_n_n.rhsBatch by decide), dif_pos (show (1 : Fin S8x8.rank) ∈ dot_S10000x8_S8x8_S10000x8_1_0_0_1_n_n.rhsNonContracting by decide)]
  rfl

/-- Entry (p, q) of a 10000×8 by 8×8 product into the zero array is the sum over the shared axis. -/
theorem matmul_sq_apply (x : FVec Ideal S10000x8 .bf16) (w : FVec Ideal S8x8 .bf16) (p : Fin 10000) (q : Fin 8) :
    matmul (F := Ideal) dot_S10000x8_S8x8_S10000x8_1_0_0_1_n_n none x w (constant (F := Ideal) S10000x8 .f32 0x00000000#32) (ix2 p q)
      = ∑ k : Fin 8, x (ix2 p k) * w (ix2 k q) := by
  simp only [matmul]
  rw [Ideal.matmul_constant_zero_apply, ← Equiv.sum_comp (ValueIdx.contrEquiv1 dot_S10000x8_S8x8_S10000x8_1_0_0_1_n_n 8 rfl rfl).symm]
  refine Finset.sum_congr rfl fun k _ => ?_
  have hk := ValueIdx.contrEquiv1_symm_val dot_S10000x8_S8x8_S10000x8_1_0_0_1_n_n 8 rfl rfl k
  have el : dot_S10000x8_S8x8_S10000x8_1_0_0_1_n_n.lhsIdx (ix2 p q) ((ValueIdx.contrEquiv1 dot_S10000x8_S8x8_S10000x8_1_0_0_1_n_n 8 rfl rfl).symm k) = ix2 p k := funext fun a => Fin.ext (by
    match a with
    | ⟨0, _⟩ => exact lhs_sq_0 _ _
    | ⟨1, _⟩ => exact (lhs_sq_1 _ _).trans hk)
  have er : dot_S10000x8_S8x8_S10000x8_1_0_0_1_n_n.rhsIdx (ix2 p q) ((ValueIdx.contrEquiv1 dot_S10000x8_S8x8_S10000x8_1_0_0_1_n_n 8 rfl rfl).symm k) = ix2 k q := funext fun a => Fin.ext (by
    match a with
    | ⟨0, _⟩ => exact (rhs_sq_0 _ _).trans hk
    | ⟨1, _⟩ => exact rhs_sq_1 _ _)
  rw [el, er]

/-! ## The one-column product -/

theorem lhs_col_0 (i : S10000x1.Idx) (q : dot_S10000x8_S8x1_S10000x1_1_0_0_1_n_n.contr.Idx) :
    (dot_S10000x8_S8x1_S10000x1_1_0_0_1_n_n.lhsIdx i q 0).val = (i 0).val := by
  unfold DotDims.lhsIdx
  rw [dif_neg (show ¬(0 : Fin S10000x8.rank) ∈ dot_S10000x8_S8x1_S10000x1_1_0_0_1_n_n.lhsBatch by decide), dif_pos (show (0 : Fin S10000x8.rank) ∈ dot_S10000x8_S8x1_S10000x1_1_0_0_1_n_n.lhsNonContracting by decide)]
  rfl
theorem lhs_col_1 (i : S10000x1.Idx) (q : dot_S10000x8_S8x1_S10000x1_1_0_0_1_n_n.contr.Idx) :
    (dot_S10000x8_S8x1_S10000x1_1_0_0_1_n_n.lhsIdx i q 1).val = (q ⟨0, by decide⟩).val :=
  dot_S10000x8_S8x1_S10000x1_1_0_0_1_n_n.lhsIdx_val_of_single rfl i q
theorem rhs_col_0 (i : S10000x1.Idx) (q : dot_S10000x8_S8x1_S10000x1_1_0_0_1_n_n.contr.Idx) :
    (dot_S10000x8_S8x1_S10000x1_1_0_0_1_n_n.rhsIdx i q 0).val = (q ⟨0, by decide⟩).val :=
  dot_S10000x8_S8x1_S10000x1_1_0_0_1_n_n.rhsIdx_val_of_single rfl i q
theorem rhs_col_1 (i : S10000x1.Idx) (q : dot_S10000x8_S8x1_S10000x1_1_0_0_1_n_n.contr.Idx) :
    (dot_S10000x8_S8x1_S10000x1_1_0_0_1_n_n.rhsIdx i q 1).val = (i 1).val := by
  unfold DotDims.rhsIdx
  rw [dif_neg (show ¬(1 : Fin S8x1.rank) ∈ dot_S10000x8_S8x1_S10000x1_1_0_0_1_n_n.rhsBatch by decide), dif_pos (show (1 : Fin S8x1.rank) ∈ dot_S10000x8_S8x1_S10000x1_1_0_0_1_n_n.rhsNonContracting by decide)]
  rfl

/-- Entry (p, q) of a 10000×8 by 8×1 product into the zero array is the sum over the shared axis. -/
theorem matmul_col_apply (x : FVec Ideal S10000x8 .bf16) (w : FVec Ideal S8x1 .bf16) (p : Fin 10000) (q : Fin 1) :
    matmul (F := Ideal) dot_S10000x8_S8x1_S10000x1_1_0_0_1_n_n none x w (constant (F := Ideal) S10000x1 .f32 0x00000000#32) (ix2 p q)
      = ∑ k : Fin 8, x (ix2 p k) * w (ix2 k q) := by
  simp only [matmul]
  rw [Ideal.matmul_constant_zero_apply, ← Equiv.sum_comp (ValueIdx.contrEquiv1 dot_S10000x8_S8x1_S10000x1_1_0_0_1_n_n 8 rfl rfl).symm]
  refine Finset.sum_congr rfl fun k _ => ?_
  have hk := ValueIdx.contrEquiv1_symm_val dot_S10000x8_S8x1_S10000x1_1_0_0_1_n_n 8 rfl rfl k
  have el : dot_S10000x8_S8x1_S10000x1_1_0_0_1_n_n.lhsIdx (ix2 p q) ((ValueIdx.contrEquiv1 dot_S10000x8_S8x1_S10000x1_1_0_0_1_n_n 8 rfl rfl).symm k) = ix2 p k := funext fun a => Fin.ext (by
    match a with
    | ⟨0, _⟩ => exact lhs_col_0 _ _
    | ⟨1, _⟩ => exact (lhs_col_1 _ _).trans hk)
  have er : dot_S10000x8_S8x1_S10000x1_1_0_0_1_n_n.rhsIdx (ix2 p q) ((ValueIdx.contrEquiv1 dot_S10000x8_S8x1_S10000x1_1_0_0_1_n_n 8 rfl rfl).symm k) = ix2 k q := funext fun a => Fin.ext (by
    match a with
    | ⟨0, _⟩ => exact (rhs_col_0 _ _).trans hk
    | ⟨1, _⟩ => exact rhs_col_1 _ _)
  rw [el, er]

/-! ## The two payloads at an entry -/

/-- Entry (p, q) of the hidden block's payload: the two products added, the bias row added, rectified. -/
theorem hidden_pay_apply (x0 x1 : Vec Ideal S10000x8 .f32) (w0 w1 : Vec Ideal S8x8 .f32) (b : Vec Ideal S1x8 .f32)
    (p : Fin 10000) (q : Fin 8) :
    k2_pay1 (F := Ideal) x0 x1 w0 w1 b (ix2 p q)
      = max (mm (R := 10000) (K := 8) (C := 8) x0 w0 p q + mm (R := 10000) (K := 8) (C := 8) x1 w1 p q + b (ix2 (0 : Fin 1) q)) z32 := by
  unfold k2_pay1
  simp only [shapeCast_self]
  refine (maximumf_apply _ _ _).trans ?_
  refine congrArg₂ max (congrArg₂ (· + ·) (congrArg₂ (· + ·) ?_ ?_) ?_) ?_
  · exact matmul_sq_apply _ _ p q
  · exact matmul_sq_apply _ _ p q
  · exact broadcastTo_apply _ _ (ix2 p q) (ix2 (0 : Fin 1) q) (fun a => match a with
      | ⟨0, _⟩ => by show (0 : Nat) = if (1 : Nat) = 1 then 0 else p.val; rw [if_pos rfl]
      | ⟨1, _⟩ => by show q.val = if (8 : Nat) = 1 then 0 else q.val; rw [if_neg (by decide)])
  · rfl

/-- Entry (p, 0) of the readout block's payload: the hidden payload's row p against the column, plus the bias. -/
theorem readout_pay_apply (x0 x1 : Vec Ideal S10000x8 .f32) (w0 w1 : Vec Ideal S8x8 .f32) (b : Vec Ideal S1x8 .f32)
    (wr : Vec Ideal S8x1 .f32) (br : Vec Ideal S1x1 .f32) (p : Fin 10000) (q : Fin 1) :
    k2_pay2 (F := Ideal) x0 x1 w0 w1 b wr br (ix2 p q)
      = (∑ k : Fin 8, k2_pay1 (F := Ideal) x0 x1 w0 w1 b (ix2 p k) * wr (ix2 k q)) + br (ix2 (0 : Fin 1) q) := by
  unfold k2_pay2
  simp only [shapeCast_self]
  refine (addf_apply _ _ _).trans ?_
  refine congrArg₂ (· + ·) ?_ ?_
  · exact matmul_col_apply _ _ p q
  · exact broadcastTo_apply _ _ (ix2 p q) (ix2 (0 : Fin 1) q) (fun a => match a with
      | ⟨0, _⟩ => by show (0 : Nat) = if (1 : Nat) = 1 then 0 else p.val; rw [if_pos rfl]
      | ⟨1, _⟩ => by show q.val = if (1 : Nat) = 1 then 0 else q.val; rw [if_pos rfl]; exact Nat.lt_one_iff.mp q.isLt)

variable (V : (c : Dev nD) → (b : Ref sig .tc) → Buf (Elt Ideal) ((c : Thread nD τ).loc b))

/-! ## Where each window's block sits at a grid point -/

/-- The block indices, decided once over the 50 grid points: the row-blocked windows sit at block (t, 0), the weight
    and bias windows at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- A grid point is below 50. -/
theorem point_lt (t : Fin cfg2.N) : t.val < 50 := lt_of_lt_of_eq t.isLt N_2

/-- Row p of block t is row t·10000 + p of the array. -/
def rowAt (t : Fin cfg2.N) (p : Fin 10000) : Fin 500000 :=
  ⟨t.val * 10000 + p.val, by have := point_lt t; have := p.isLt; omega⟩

/-! ## Each input block as entries of its array -/

theorem blk_n1 (c : Dev nD) (t : Fin cfg2.N) (p : Fin 10000) (q : Fin 8) :
    iblk2 (F := Ideal) V c 0 t (ix2 p q) = (V c main_v1 : S500000x8.Idx → EReal) (ix2 (rowAt t p) q) := by
  obtain ⟨e0, e1, -⟩ := idx_facts t
  unfold iblk2
  rw [View.read_apply]
  show (V c main_v1 : S500000x8.Idx → EReal) _ = _
  congr 1
  funext a; apply Fin.ext
  match a with
  | ⟨0, _⟩ => show win2_0.index t (0 : Fin 2) * 10000 + 1 * p.val = t.val * 10000 + p.val; rw [e0]; omega
  | ⟨1, _⟩ => show win2_0.index t (1 : Fin 2) * 8 + 1 * q.val = q.val; rw [e1]; omega

theorem blk_inc (c : Dev nD) (t : Fin cfg2.N) (p : Fin 10000) (q : Fin 8) :
    iblk2 (F := Ideal) V c 1 t (ix2 p q) = (V c main_v17 : S500000x8.Idx → EReal) (ix2 (rowAt t p) q) := by
  obtain ⟨-, -, e0, e1, -⟩ := idx_facts t
  unfold iblk2
  rw [View.read_apply]
  show (V c main_v17 : S500000x8.Idx → EReal) _ = _
  congr 1
  funext a; apply Fin.ext
  match a with
  | ⟨0, _⟩ => show win2_1.index t (0 : Fin 2) * 10000 + 1 * p.val = t.val * 10000 + p.val; rw [e0]; omega
  | ⟨1, _⟩ => show win2_1.index t (1 : Fin 2) * 8 + 1 * q.val = q.val; rw [e1]; omega

theorem blk_Wnh (c : Dev nD) (t : Fin cfg2.N) (p : Fin 8) (q : Fin 8) :
    iblk2 (F := Ideal) V c 2 t (ix2 p q) = (V c main_arg12 : S8x8.Idx → EReal) (ix2 p q) := by
  obtain ⟨-, -, -, -, e0, e1, -⟩ := idx_facts t
  unfold iblk2
  rw [View.read_apply]
  show (V c main_arg12 : S8x8.Idx → EReal) _ = _
  congr 1
  funext a; apply Fin.ext
  match a with
  | ⟨0, _⟩ => show win2_2.index t (0 : Fin 2) * 8 + 1 * p.val = p.val; rw [e0]; omega
  | ⟨1, _⟩ => show win2_2.index t (1 : Fin 2) * 8 + 1 * q.val = q.val; rw [e1]; omega

theorem blk_Winh (c : Dev nD) (t : Fin cfg2.N) (p : Fin 8) (q : Fin 8) :
    iblk2 (F := Ideal) V c 3 t (ix2 p q) = (V c main_arg13 : S8x8.Idx → EReal) (ix2 p q) := by
  obtain ⟨-, -, -, -, -, -, e0, e1, -⟩ := idx_facts t
  unfold iblk2
  rw [View.read_apply]
  show (V c main_arg13 : S8x8.Idx → EReal) _ = _
  congr 1
  funext a; apply Fin.ext
  match a with
  | ⟨0, _⟩ => show win2_3.index t (0 : Fin 2) * 8 + 1 * p.val = p.val; rw [e0]; omega
  | ⟨1, _⟩ => show win2_3.index t (1 : Fin 2) * 8 + 1 * q.val = q.val; rw [e1]; omega

theorem blk_bnh (c : Dev nD) (t : Fin cfg2.N) (p : Fin 1) (q : Fin 8) :
    iblk2 (F := Ideal) V c 4 t (ix2 p q) = (V c main_v18 : S1x8.Idx → EReal) (ix2 p q) := by
  obtain ⟨-, -, -, -, -, -, -, -, e0, e1, -⟩ := idx_facts t
  unfold iblk2
  rw [View.read_apply]
  show (V c main_v18 : S1x8.Idx → EReal) _ = _
  congr 1
  funext a; apply Fin.ext
  match a with
  | ⟨0, _⟩ => show win2_4.index t (0 : Fin 2) * 1 + 1 * p.val = p.val; rw [e0]; omega
  | ⟨1, _⟩ => show win2_4.index t (1 : Fin 2) * 8 + 1 * q.val = q.val; rw [e1]; omega

theorem blk_Wrn (c : Dev nD) (t : Fin cfg2.N) (p : Fin 8) (q : Fin 1) :
    iblk2 (F := Ideal) V c 5 t (ix2 p q) = (V c main_arg15 : S8x1.Idx → EReal) (ix2 p q) := by
  obtain ⟨-, -, -, -, -, -, -, -, -, -, e0, e1, -⟩ := idx_facts t
  unfold iblk2
  rw [View.read_apply]
  show (V c main_arg15 : S8x1.Idx → EReal) _ = _
  congr 1
  funext a; apply Fin.ext
  match a with
  | ⟨0, _⟩ => show win2_5.index t (0 : Fin 2) * 8 + 1 * p.val = p.val; rw [e0]; omega
  | ⟨1, _⟩ => show win2_5.index t (1 : Fin 2) * 1 + 1 * q.val = q.val; rw [e1]; omega

theorem blk_brn (c : Dev nD) (t : Fin cfg2.N) (p : Fin 1) (q : Fin 1) :
    iblk2 (F := Ideal) V c 6 t (ix2 p q) = (V c main_v19 : S1x1.Idx → EReal) (ix2 p q) := by
  obtain ⟨-, -, -, -, -, -, -, -, -, -, -, -, e0, e1, -⟩ := idx_facts t
  unfold iblk2
  rw [View.read_apply]
  show (V c main_v19 : S1x1.Idx → EReal) _ = _
  congr 1
  funext a; apply Fin.ext
  match a with
  | ⟨0, _⟩ => show win2_6.index t (0 : Fin 2) * 1 + 1 * p.val = p.val; rw [e0]; omega
  | ⟨1, _⟩ => show win2_6.index t (1 : Fin 2) * 1 + 1 * q.val = q.val; rw [e1]; omega

/-! ## The payloads of a block as the layers on the whole arrays -/

/-- The hidden layer on the whole arrays. -/
abbrev hiddenOf (c : Dev nD) : Mat 500000 8 :=
  twoDenseRelu (R := 500000) (K := 8) (L := 8) (C := 8)
    (V c main_v1) (V c main_arg12) (V c main_v17) (V c main_arg13) (V c main_v18)

/-- Block t's hidden payload at (p, q) is the hidden layer at row t·10000 + p, column q. -/
theorem hidden_blk_apply (c : Dev nD) (t : Fin cfg2.N) (p : Fin 10000) (q : Fin 8) :
    k2_pay1 (F := Ideal) (iblk2 V c 0 t) (iblk2 V c 1 t) (iblk2 V c 2 t) (iblk2 V c 3 t) (iblk2 V c 4 t) (ix2 p q)
      = hiddenOf V c (ix2 (rowAt t p) q) := by
  refine (hidden_pay_apply _ _ _ _ _ p q).trans ?_
  show _ = max (mm (R := 500000) (K := 8) (C := 8) (V c main_v1) (V c main_arg12) (rowAt t p) q
      + mm (R := 500000) (K := 8) (C := 8) (V c main_v17) (V c main_arg13) (rowAt t p) q
      + (V c main_v18 : S1x8.Idx → EReal) (ix2 (0 : Fin 1) q)) z32
  unfold mm
  rw [blk_bnh]
  refine congrArg₂ max (congrArg₂ (· + ·) (congrArg₂ (· + ·) ?_ ?_) rfl) rfl
  · exact Finset.sum_congr rfl fun k _ => by rw [blk_n1, blk_Wnh]
  · exact Finset.sum_congr rfl fun k _ => by rw [blk_inc, blk_Winh]

/-- Block t's readout payload at (p, q) is the readout layer of the hidden layer at row t·10000 + p. -/
theorem readout_blk_apply (c : Dev nD) (t : Fin cfg2.N) (p : Fin 10000) (q : Fin 1) :
    k2_pay2 (F := Ideal) (iblk2 V c 0 t) (iblk2 V c 1 t) (iblk2 V c 2 t) (iblk2 V c 3 t) (iblk2 V c 4 t) (iblk2 V c 5 t) (iblk2 V c 6 t) (ix2 p q)
      = dense (R := 500000) (K := 8) (C := 1) (hiddenOf V c) (V c main_arg15) (V c main_v19) (ix2 (rowAt t p) q) := by
  refine (readout_pay_apply _ _ _ _ _ _ _ p q).trans ?_
  show _ = mm (R := 500000) (K := 8) (C := 1) (hiddenOf V c) (V c main_arg15) (rowAt t p) q
      + (V c main_v19 : S1x1.Idx → EReal) (ix2 (0 : Fin 1) q)
  unfold mm
  rw [blk_brn]
  refine congrArg₂ (· + ·) ?_ rfl
  exact Finset.sum_congr rfl fun k _ => by rw [hidden_blk_apply, blk_Wrn]

/-! ## What each grid point writes back -/

/-- Where entry (p, q) of block t of the hidden output sits in the array. -/
theorem emb_hidden (t : Fin cfg2.N) (p : Fin 10000) (q : Fin 8) :
    ((cfg2.win 7).blk t).view.emb (ix2 p q) = (ix2 (rowAt t p) q : S500000x8.Idx) := by
  obtain ⟨-, -, -, -, -, -, -, -, -, -, -, -, -, -, e0, e1, -⟩ := idx_facts t
  funext a; apply Fin.ext
  match a with
  | ⟨0, _⟩ => show win2_7.index t (0 : Fin 2) * 10000 + 1 * p.val = t.val * 10000 + p.val; rw [e0]; omega
  | ⟨1, _⟩ => show win2_7.index t (1 : Fin 2) * 8 + 1 * q.val = q.val; rw [e1]; omega

/-- Where entry (p, q) of block t of the readout output sits in the array. -/
theorem emb_readout (t : Fin cfg2.N) (p : Fin 10000) (q : Fin 1) :
    ((cfg2.win 8).blk t).view.emb (ix2 p q) = (ix2 (rowAt t p) q : S500000x1.Idx) := by
  obtain ⟨-, -, -, -, -, -, -, -, -, -, -, -, -, -, -, -, e0, e1⟩ := idx_facts t
  funext a; apply Fin.ext
  match a with
  | ⟨0, _⟩ => show win2_8.index t (0 : Fin 2) * 10000 + 1 * p.val = t.val * 10000 + p.val; rw [e0]; omega
  | ⟨1, _⟩ => show win2_8.index t (1 : Fin 2) * 1 + 1 * q.val = q.val; rw [e1]; omega

/-- Point t writes back block t of the hidden layer. -/
theorem flushed_hidden (c : Dev nD) (t : Fin cfg2.N) :
    (dat2 (F := Ideal) V c).flushed 7 t = ((cfg2.win 7).blk t).view.read (Elt Ideal) (hiddenOf V c) := by
  show (cfg2.win 7).cut (grid2.coords t) ((dat2 V c).after 7 t) = _
  rw [after2_7]
  unfold out2_7
  rw [View.canon_unit_zero hz]
  simp only [View.ld_unit_zero (S := S10000x8) hz, View.ld_unit_zero (S := S8x8) hz, View.ld_unit_zero (S := S1x8) hz]
  funext j
  obtain ⟨p, q, rfl⟩ : ∃ (p : Fin 10000) (q : Fin 8), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = hiddenOf V c (((cfg2.win 7).blk t).view.emb (ix2 p q))
  rw [emb_hidden]
  exact hidden_blk_apply V c t p q

/-- Point t writes back block t of the readout layer. -/
theorem flushed_readout (c : Dev nD) (t : Fin cfg2.N) :
    (dat2 (F := Ideal) V c).flushed 8 t = ((cfg2.win 8).blk t).view.read (Elt Ideal)
      (dense (R := 500000) (K := 8) (C := 1) (hiddenOf V c) (V c main_arg15) (V c main_v19)) := by
  show (cfg2.win 8).cut (grid2.coords t) ((dat2 V c).after 8 t) = _
  rw [after2_8]
  unfold out2_8
  rw [View.canon_unit_zero hz]
  simp only [View.ld_unit_zero (S := S10000x8) hz, View.ld_unit_zero (S := S8x8) hz, View.ld_unit_zero (S := S1x8) hz,
    View.ld_unit_zero (S := S8x1) hz, View.ld_unit_zero (S := S1x1) hz]
  funext j
  obtain ⟨p, q, rfl⟩ : ∃ (p : Fin 10000) (q : Fin 1), j = ix2 p q := ⟨j 0, j 1, eq_ix2 j⟩
  show k2_pay2 (F := Ideal) (iblk2 V c 0 t) (iblk2 V c 1 t) (iblk2 V c 2 t) (iblk2 V c 3 t) (iblk2 V c 4 t) (iblk2 V c 5 t) (iblk2 V c 6 t) (ix2 p q)
    = dense (R := 500000) (K := 8) (C := 1) (hiddenOf V c) (V c main_arg15) (V c main_v19) (((cfg2.win 8).blk t).view.emb (ix2 p q))
  rw [emb_readout]
  exact readout_blk_apply V c t p q

/-! ## The blocks cover the arrays -/

/-- An entry of the hidden array is in point t's block iff each coordinate is in the block's range. -/
theorem mem_blk_hidden (t : Fin cfg2.N) (i : S500000x8.Idx) :
    i ∈ ((cfg2.win 7).blk t).view.set ↔ ∀ a : Fin 2, win2_7.index t a * S10000x8.size a ≤ (i a).val ∧ (i a).val < win2_7.index t a * S10000x8.size a + S10000x8.size a := by
  show i ∈ ((View.whole main_v20_0).slice (win2_7.rect t)).set ↔ _
  rw [View.set_slice_whole, Rect.mem_set_unit]
  exact Iff.rfl

/-- An entry of the readout array is in point t's block iff each coordinate is in the block's range. -/
theorem mem_blk_readout (t : Fin cfg2.N) (i : S500000x1.Idx) :
    i ∈ ((cfg2.win 8).blk t).view.set ↔ ∀ a : Fin 2, win2_8.index t a * S10000x1.size a ≤ (i a).val ∧ (i a).val < win2_8.index t a * S10000x1.size a + S10000x1.size a := by
  show i ∈ ((View.whole main_v20_1).slice (win2_8.rect t)).set ↔ _
  rw [View.set_slice_whole, Rect.mem_set_unit]
  exact Iff.rfl

/-- Row r of the hidden array is in the block of point r / 10000. -/
theorem cover_hidden (i : S500000x8.Idx) :
    ∃ t : Fin cfg2.N, (cfg2.win 7).flush t = true ∧ i ∈ ((cfg2.win 7).blk t).view.set := by
  have hi0 : (i 0).val < 500000 := (i 0).isLt
  have hi1 : (i 1).val < 8 := (i 1).isLt
  have hN : cfg2.N = 50 := N_2
  obtain ⟨t, ht⟩ : ∃ t : Fin cfg2.N, t.val = (i 0).val / 10000 := ⟨⟨(i 0).val / 10000, by rw [hN]; omega⟩, rfl⟩
  obtain ⟨-, -, -, -, -, -, -, -, -, -, -, -, -, -, e0, e1, -⟩ := idx_facts t
  refine ⟨t, flush2_7 t, ?_⟩
  rw [mem_blk_hidden]
  intro a
  match a with
  | ⟨0, _⟩ => show win2_7.index t (0 : Fin 2) * 10000 ≤ (i 0).val ∧ (i 0).val < win2_7.index t (0 : Fin 2) * 10000 + 10000; rw [e0, ht]; omega
  | ⟨1, _⟩ => show win2_7.index t (1 : Fin 2) * 8 ≤ (i 1).val ∧ (i 1).val < win2_7.index t (1 : Fin 2) * 8 + 8; rw [e1]; omega

/-- Row r of the readout array is in the block of point r / 10000. -/
theorem cover_readout (i : S500000x1.Idx) :
    ∃ t : Fin cfg2.N, (cfg2.win 8).flush t = true ∧ i ∈ ((cfg2.win 8).blk t).view.set := by
  have hi0 : (i 0).val < 500000 := (i 0).isLt
  have hi1 : (i 1).val < 1 := (i 1).isLt
  have hN : cfg2.N = 50 := N_2
  obtain ⟨t, ht⟩ : ∃ t : Fin cfg2.N, t.val = (i 0).val / 10000 := ⟨⟨(i 0).val / 10000, by rw [hN]; omega⟩, rfl⟩
  obtain ⟨-, -, -, -, -, -, -, -, -, -, -, -, -, -, -, -, e0, e1⟩ := idx_facts t
  refine ⟨t, flush2_8 t, ?_⟩
  rw [mem_blk_readout]
  intro a
  match a with
  | ⟨0, _⟩ => show win2_8.index t (0 : Fin 2) * 10000 ≤ (i 0).val ∧ (i 0).val < win2_8.index t (0 : Fin 2) * 10000 + 10000; rw [e0, ht]; omega
  | ⟨1, _⟩ => show win2_8.index t (1 : Fin 2) * 1 ≤ (i 1).val ∧ (i 1).val < win2_8.index t (1 : Fin 2) * 1 + 1; rw [e1]; omega

/-! ## The two output arrays after the run -/

theorem hidden_eq (c : Dev nD) :
    (dat2 (F := Ideal) V c).arrAt 7 cfg2.N
      = twoDenseRelu (R := 500000) (K := 8) (L := 8) (C := 8)
          (V c main_v1) (V c main_arg12) (V c main_v17) (V c main_arg13) (V c main_v18) :=
  (dat2 (F := Ideal) V c).arrAt_eq_of_cover 7 (hiddenOf V c) (fun t _ => flushed_hidden V c t) cover_hidden

theorem readout_eq (c : Dev nD) :
    (dat2 (F := Ideal) V c).arrAt 8 cfg2.N
      = dense (R := 500000) (K := 8) (C := 1)
          (twoDenseRelu (R := 500000) (K := 8) (L := 8) (C := 8)
            (V c main_v1) (V c main_arg12) (V c main_v17) (V c main_arg13) (V c main_v18))
          (V c main_arg15) (V c main_v19) :=
  (dat2 (F := Ideal) V c).arrAt_eq_of_cover 8
    (dense (R := 500000) (K := 8) (C := 1) (hiddenOf V c) (V c main_arg15) (V c main_v19))
    (fun t _ => flushed_readout V c t) cover_readout

end Cert.KernelIdeal.NodeHidden

end
-- ==== Proof.Take.lean ====
import proofs.«418326_j28647431864464_2_alg».proof.Defs
import proofs.«418326_j28647431864464_2_alg».proof.Proof.Gen.KernelIdeal
import proofs.«418326_j28647431864464_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

open Idealize.ShloMosaic Idealize.ShloMosaic.TcCoe Idealize.SL.Sem Idealize.ShloMosaic.ValueIdx

namespace Cert.KernelIdeal.Take

open Cert.KernelIdeal Cert.KernelIdeal.Gen

/-- The sender index after Python-style wrapping of negatives, laid out as the one-column index array the gather reads. -/
def wrapped (s : IVec S10000000 32) : IVec S10000000x1 32 :=
  broadcastInDim S10000000x1 ![0] bcast_S10000000_S10000000x1_0
    (select (cmpi .slt s (broadcastInDim S10000000 ![] bcast_S_S10000000 (constantI S_ 32 0#32)))
      (addi s (broadcastInDim S10000000 ![] bcast_S_S10000000 (constantI S_ 32 500000#32))) s)

/-- The word 4294467296 read as a signed 32-bit integer is -500000. -/
theorem toInt_lo : (4294467296#32 : BitVec 32).toInt = -500000 := by decide

/-- The word 500000 read as a signed 32-bit integer is 500000. -/
theorem toInt_hi : (500000#32 : BitVec 32).toInt = 500000 := by decide

/-- The precondition's last conjunct, read at one sender: if the tail of the conjunction chain is one at its single
    index, then the all-of over the senders array is one, so at index i both signed comparisons hold:
    -500000 ≤ a2[i] and a2[i] < 500000. The float conjuncts before it stay unread. -/
theorem part4_decode {F : FTy → Type} [FloatOps F] (a2 : IVec S10000000 32)
    (a17 : FVec F Cert.Pre_finite_inputs.S8x1 .f32) (a18 : FVec F Cert.Pre_finite_inputs.S1 .f32)
    (v63 v67 : IVec Cert.Pre_finite_inputs.S_ 1)
    (e : Cert.Pre_finite_inputs.fn_part4 (F := F) a2 a17 a18 v63 v67 ix0 = 1#1) (i : S10000000.Idx) :
    -500000 ≤ (a2 i).toInt ∧ (a2 i).toInt < 500000 := by
  unfold Cert.Pre_finite_inputs.fn_part4 Cert.Pre_finite_inputs.fn_part5 at e
  haveI : Subsingleton Cert.Pre_finite_inputs.S_.Idx := ⟨fun a b => funext fun d => d.elim0⟩
  -- the outermost conjunction's right operand is the all-of; a conjunction fold that is one met a one at every index
  have e2 := Host.reduce_andi_all _ _ _ _ _ (IntOp.andi_eq_one.1 e).2 i
  obtain ⟨hge, hlt⟩ := IntOp.andi_eq_one.1 e2
  have hge' := IntOp.cmpi_sge.1 hge
  have hlt' := IntOp.cmpi_slt.1 hlt
  exact ⟨toInt_lo ▸ hge', toInt_hi ▸ hlt'⟩

/-- Under the precondition every sender index lies in [-500000, 500000). -/
theorem senders_in_range (m : (ℓ : Loc nD τ sig) → Buf (Elt Ideal) ℓ) (h : Cert.Pre_KernelIdeal (hPre_finite_inputs := Cert.Pre_finite_inputs.Gen.facts) m)
    (c : Dev nD) (i : S10000000.Idx) :
    -500000 ≤ ((m ((c.tc : Thread nD τ).loc main_arg2) : IVec S10000000 32) i).toInt
      ∧ ((m ((c.tc : Thread nD τ).loc main_arg2) : IVec S10000000 32) i).toInt < 500000 := by
  -- the precondition at its one index; the function is its chain of parts, ending in the part decoded above
  have e := congrFun (h c) ValueIdx.ix0
  exact part4_decode _ _ _ _ _ e i

/-- A left fold of one-bit conjunction that starts at one and meets only ones ends at one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A conjunction-reduce from the constant one of an array that is one everywhere is one at every result index
    (whatever the reduced axes: each result element is a fold over some of the operand's elements). -/
theorem reduce_andi_one {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one x _ (fun n _ => hx n)

/-- One word wrapped: for -500000 ≤ w < 500000 (signed), the word "w + 500000 if w < 0, else w" lies in [0, 499999].
    For negative w the sum w + 500000 is in [0, 500000), far from the 32-bit boundary, so the word sum is the integer sum. -/
theorem wrap_word (w : BitVec 32) (h : -500000 ≤ w.toInt ∧ w.toInt < 500000) :
    0 ≤ (Scalar.select (IntOp.cmpi .slt w 0#32) (IntOp.addi w 500000#32) w).toInt
      ∧ (Scalar.select (IntOp.cmpi .slt w 0#32) (IntOp.addi w 500000#32) w).toInt ≤ 499999 := by
  have h0 : (0#32 : BitVec 32).toInt = 0 := by decide
  by_cases hc : IntOp.cmpi .slt w 0#32 = 1#1
  · rw [hc, select_one]
    have hneg := IntOp.cmpi_slt.1 hc
    rw [h0] at hneg
    show 0 ≤ (w + 500000#32).toInt ∧ (w + 500000#32).toInt ≤ 499999
    rw [BitVec.toInt_add, toInt_hi, Int.bmod_eq_of_le_mul_two (by omega) (by omega)]
    omega
  · rw [eq_zero_of_ne_one hc, select_zero]
    have hnn : ¬ w.toInt < 0 := fun hlt => hc (IntOp.cmpi_slt.2 (by rw [h0]; exact hlt))
    omega

/-- Every entry of the wrapped index column lies in [0, 499999] when every sender lies in [-500000, 500000):
    the entry at row k is the wrapped word of the sender at that row. -/
theorem wrapped_range (s : IVec S10000000 32) (hs : ∀ i, -500000 ≤ (s i).toInt ∧ (s i).toInt < 500000)
    (k : S10000000x1.Idx) : 0 ≤ (wrapped s k).toInt ∧ (wrapped s k).toInt ≤ 499999 :=
  wrap_word _ (hs _)

/-- With every sender in range the fill-mode row gather never fills: its in-bounds mask is all ones. -/
theorem take_eq_gather (s : IVec S10000000 32) (hs : ∀ i, -500000 ≤ (s i).toInt ∧ (s i).toInt < 500000)
    (g nanv : FVec Ideal S10000000x8 .f32) :
    select (broadcastInDim S10000000x8 ![0] bcast_S10000000_S10000000x8_0
        (Host.reduce IntOp.andi
          (andi (cmpi .sge (wrapped s) (broadcastInDim S10000000x1 ![] bcast_S_S10000000x1 (constantI S_ 32 0#32)))
            (cmpi .sle (wrapped s) (broadcastInDim S10000000x1 ![0, 1] bcast_S1x1_S10000000x1_0_1
              (broadcastInDim S1x1 ![1] bcast_S1_S1x1_1 (constantI S1 32 499999#32)))))
          (constantI S_ 1 1#1) reducesTo_S10000000x1_S10000000_d1 h_S_))
      g nanv = g := by
  have h0 : (0#32 : BitVec 32).toInt = 0 := by decide
  have h9 : (499999#32 : BitVec 32).toInt = 499999 := by decide
  -- the two-sided bound test is one at every entry of the wrapped column: both broadcast constants read 0 and 499999
  have hx : ∀ k : S10000000x1.Idx,
      andi (cmpi .sge (wrapped s) (broadcastInDim S10000000x1 ![] bcast_S_S10000000x1 (constantI S_ 32 0#32)))
        (cmpi .sle (wrapped s) (broadcastInDim S10000000x1 ![0, 1] bcast_S1x1_S10000000x1_0_1
          (broadcastInDim S1x1 ![1] bcast_S1_S1x1_1 (constantI S1 32 499999#32)))) k = 1#1 := by
    intro k
    obtain ⟨hlo, hhi⟩ := wrapped_range s hs k
    refine IntOp.andi_eq_one.2 ⟨IntOp.cmpi_sge.2 ?_, IntOp.cmpi_sle.2 ?_⟩
    · rw [← h0] at hlo; exact hlo
    · rw [← h9] at hhi; exact hhi
  -- so the per-row conjunction is the all-ones vector, its broadcast along the rows is one everywhere,
  -- and the select keeps its first operand at every index
  rw [show Host.reduce IntOp.andi _ (constantI S_ 1 1#1) reducesTo_S10000000x1_S10000000_d1 h_S_ = fun _ => 1#1 from
    funext fun r => reduce_andi_one _ hx _ _ r]
  funext j
  rw [select_apply]
  exact select_one _ _

end Cert.KernelIdeal.Take

end
-- ==== Proof.KernelValue.lean ====
/-
  The kernel program's two results as functions of its nineteen argument arrays.

  The program is a fold: host operations, then a gridded region, three times over. Walking that fold backwards from the
  two result buffers, every buffer an item reads is either an argument (no item writes one), a bias vector laid out as
  a one-row matrix, the row gather of the node encoding at the wrapped sender indices (whose fill mask is all ones when
  the senders are in range), the mean of incoming edge rows per receiver, or the output array of an earlier region —
  and each region's output array is a layer of the network applied to the arrays it found on entry.
-/
import proofs.«418326_j28647431864464_2_alg».proof.Proof.Gen.KernelIdeal.Frame
import proofs.«418326_j28647431864464_2_alg».proof.Proof.Layers
import proofs.«418326_j28647431864464_2_alg».proof.Proof.NodeEncode
import proofs.«418326_j28647431864464_2_alg».proof.Proof.EdgeBlock
import proofs.«418326_j28647431864464_2_alg».proof.Proof.NodeHidden
import proofs.«418326_j28647431864464_2_alg».proof.Proof.Take
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.StableHlo

namespace Cert.KernelIdeal.Net

open Cert.KernelIdeal Cert.KernelIdeal.Gen Cert.Gnn

/-! ## The network, array by array -/

/-- Encoded nodes: relu (x·W + b). -/
def nodes1 (x0 : FVec Ideal S500000x4 .f32) (x7 : FVec Ideal S4x8 .f32) (x8 : FVec Ideal S8 .f32) : FVec Ideal S500000x8 .f32 :=
  denseRelu (R := 500000) (K := 4) (C := 8) x0 x7 (rowOf x8)

/-- The sender's encoded row for every edge (negative indices wrapped; the gather clamps). -/
def senderRows (n1 : FVec Ideal S500000x8 .f32) (x2 : IVec S10000000 32) : FVec Ideal S10000000x8 .f32 :=
  Host.gather gather_S500000x8_S10000000x1_S10000000x8_1_0_n_n_0_1_18 n1 (Take.wrapped x2)

/-- Hidden edges: relu (relu (e·We + be)·Weh + s·Wsh + beh). -/
def edges2 (x1 : FVec Ideal S10000000x2 .f32) (x5 : FVec Ideal S2x4 .f32) (x6 : FVec Ideal S4 .f32) (x9 : FVec Ideal S4x8 .f32)
    (s : FVec Ideal S10000000x8 .f32) (x10 : FVec Ideal S8x8 .f32) (x11 : FVec Ideal S8 .f32) : FVec Ideal S10000000x8 .f32 :=
  twoDenseRelu (R := 10000000) (K := 4) (L := 8) (C := 8)
    (denseRelu (R := 10000000) (K := 2) (C := 4) x1 x5 (rowOf x6)) x9 s x10 (rowOf x11)

/-- Mean of the incoming hidden edges per receiver: the scattered sum over the scattered count, the count at least one. -/
def incoming (e2 : FVec Ideal S10000000x8 .f32) (x3 : IVec S10000000 32) : FVec Ideal S500000x8 .f32 :=
  Host.divf
    (Host.scatterAdd scatter_S500000x8_S10000000x1_S10000000x8_1_0_0_1
      (broadcastInDim S500000x8 ![] bcast_S_S500000x8 (constant S_ .f32 0x00000000#32))
      (broadcastInDim S10000000x1 ![0] bcast_S10000000_S10000000x1_0 x3) e2)
    (broadcastInDim S500000x8 ![0, 1] bcast_S500000x1_S500000x8_0_1
      (broadcastInDim S500000x1 ![0] bcast_S500000_S500000x1_0
        (maximumf
          (Host.scatterAdd scatter_S500000_S10000000x1_S10000000_n_0_0_1
            (broadcastInDim S500000 ![] bcast_S_S500000 (constant S_ .f32 0x00000000#32))
            (broadcastInDim S10000000x1 ![0] bcast_S10000000_S10000000x1_0 x3)
            (broadcastInDim S10000000 ![] bcast_S_S10000000 (constant S_ .f32 0x3F800000#32)))
          (broadcastInDim S500000 ![] bcast_S_S500000 (constant S_ .f32 0x3F800000#32)))))

/-- Hidden nodes: relu (n·Wn + inc·Win + b). -/
def nodes2 (n1 : FVec Ideal S500000x8 .f32) (x12 : FVec Ideal S8x8 .f32) (inc : FVec Ideal S500000x8 .f32)
    (x13 : FVec Ideal S8x8 .f32) (x14 : FVec Ideal S8 .f32) : FVec Ideal S500000x8 .f32 :=
  twoDenseRelu (R := 500000) (K := 8) (L := 8) (C := 8) n1 x12 inc x13 (rowOf x14)

/-- Node readout: n2·Wr + br. -/
def nodesOut (n2 : FVec Ideal S500000x8 .f32) (x15 : FVec Ideal S8x1 .f32) (x16 : FVec Ideal S1 .f32) : FVec Ideal S500000x1 .f32 :=
  dense (R := 500000) (K := 8) (C := 1) n2 x15 (rowOf x16)

/-- Graph readout: the hidden nodes summed per graph, times Wg, plus bg. -/
def globalsOut (n2 : FVec Ideal S500000x8 .f32) (x4 : IVec S500000 32) (x17 : FVec Ideal S8x1 .f32) (x18 : FVec Ideal S1 .f32) :
    FVec Ideal S128x1 .f32 :=
  addf
    (Host.dotGeneral dot_S128x8_S8x1_S128x1_1_0_0_1_n_n none
      (Host.scatterAdd scatter_S128x8_S500000x1_S500000x8_1_0_0_1
        (broadcastInDim S128x8 ![] bcast_S_S128x8 (constant S_ .f32 0x00000000#32))
        (broadcastInDim S500000x1 ![0] bcast_S500000_S500000x1_0 x4) n2)
      x17)
    (broadcastInDim S128x1 ![0, 1] bcast_S1x1_S128x1_0_1 (broadcastInDim S1x1 ![1] bcast_S1_S1x1_1 x18))

/-- A length-a vector cast to one row reads the vector at the column. -/
theorem reshape_row {a : Nat} (x : (⟨1, ![a]⟩ : Shape).Idx → EReal) (h : (⟨1, ![a]⟩ : Shape).ShapeCasts ⟨2, ![1, a]⟩) :
    shapeCast ⟨2, ![1, a]⟩ x h = rowOf x := by
  funext i
  obtain ⟨u, q, rfl⟩ : ∃ (u : Fin 1) (q : Fin a), i = ix2 u q := ⟨i 0, i 1, eq_ix2 i⟩
  rw [shapeCast_a_1a_apply]
  rfl

/-! ## Walking the fold -/

variable (m : (ℓ : Loc nD τ sig) → Buf (Elt Ideal) ℓ) (ρ : Dev nD → PrngReg)

/-- One step back through a stretch of host operations or past a region that does not own the buffer. -/
macro "step_back" : tactic => `(tactic| (
  first
    | (dsimp only [W1, W3, W4, W6, W8, hostOps0, hostOps1, hostOps1_1, hostOps2, hostOps3]; after_results_simp)
    | rw [W7_of_ne _ _ _ _ (by decide)]
    | rw [W5_of_ne _ _ _ _ (by decide)]
    | rw [W2_of_ne _ _ _ _ (by decide)]))

section Args
variable (c : Dev nD)

set_option maxHeartbeats 4000000 in
theorem W1_arg0 : V1 m ρ c main_arg0 = m ((c : Thread nD τ).loc main_arg0) := by
  show W1 m ρ c (Proc.devRef .tc main_arg0) = _
  repeat step_back
set_option maxHeartbeats 4000000 in
theorem W1_arg7 : V1 m ρ c main_arg7 = m ((c : Thread nD τ).loc main_arg7) := by
  show W1 m ρ c (Proc.devRef .tc main_arg7) = _
  repeat step_back
set_option maxHeartbeats 4000000 in
theorem W1_v0 : V1 m ρ c main_v0 = rowOf (C := 8) (m ((c : Thread nD τ).loc main_arg8)) := by
  show W1 m ρ c (Proc.devRef .tc main_v0) = _
  dsimp only [W1, hostOps0]; after_results
  funext i
  show shapeCast S1x8 (m ((c : Thread nD τ).loc main_arg8) : FVec Ideal S8 .f32) shapeCasts_S8_S1x8 i = _
  rw [reshape_row]

/-- Region 0 leaves the encoded nodes in its output array. -/
theorem W2_v1 : W2 m ρ c (Proc.devRef .tc main_v1)
    = nodes1 (m ((c : Thread nD τ).loc main_arg0)) (m ((c : Thread nD τ).loc main_arg7)) (m ((c : Thread nD τ).loc main_arg8)) := by
  refine (W2_arr m ρ c 3).trans ((NodeEncode.array_eq (V1 m ρ) c).trans ?_)
  rw [W1_arg0, W1_arg7, W1_v0]
  rfl

/-! ### Region 1's entry -/

set_option maxHeartbeats 4000000 in
theorem W4_arg1 : V4 m ρ c main_arg1 = m ((c : Thread nD τ).loc main_arg1) := by
  show W4 m ρ c (Proc.devRef .tc main_arg1) = _
  repeat step_back
set_option maxHeartbeats 4000000 in
theorem W4_arg5 : V4 m ρ c main_arg5 = m ((c : Thread nD τ).loc main_arg5) := by
  show W4 m ρ c (Proc.devRef .tc main_arg5) = _
  repeat step_back
set_option maxHeartbeats 4000000 in
theorem W4_arg9 : V4 m ρ c main_arg9 = m ((c : Thread nD τ).loc main_arg9) := by
  show W4 m ρ c (Proc.devRef .tc main_arg9) = _
  repeat step_back
set_option maxHeartbeats 4000000 in
theorem W4_arg10 : V4 m ρ c main_arg10 = m ((c : Thread nD τ).loc main_arg10) := by
  show W4 m ρ c (Proc.devRef .tc main_arg10) = _
  repeat step_back

set_option maxHeartbeats 4000000 in
theorem W3_arg6 : W3 m ρ c (Proc.devRef .tc main_arg6) = m ((c : Thread nD τ).loc main_arg6) := by
  show W3 m ρ c (Proc.devRef .tc main_arg6) = _
  repeat step_back
set_option maxHeartbeats 4000000 in
theorem W3_arg11 : W3 m ρ c (Proc.devRef .tc main_arg11) = m ((c : Thread nD τ).loc main_arg11) := by
  show W3 m ρ c (Proc.devRef .tc main_arg11) = _
  repeat step_back

set_option maxHeartbeats 4000000 in
theorem W2_arg2 : W2 m ρ c (Proc.devRef .tc main_arg2) = m ((c : Thread nD τ).loc main_arg2) := by
  show W2 m ρ c (Proc.devRef .tc main_arg2) = _
  repeat step_back

set_option maxHeartbeats 4000000 in
theorem W4_v3 : V4 m ρ c main_v3 = rowOf (C := 4) (m ((c : Thread nD τ).loc main_arg6)) := by
  show W4 m ρ c (Proc.devRef .tc main_v3) = _
  dsimp only [W4, hostOps1_1]; after_results
  funext i
  show shapeCast S1x4 (W3 m ρ c (Proc.devRef .tc main_arg6) : FVec Ideal S4 .f32) shapeCasts_S4_S1x4 i = _
  rw [W3_arg6, reshape_row]
set_option maxHeartbeats 4000000 in
theorem W4_v4 : V4 m ρ c main_v4 = rowOf (C := 8) (m ((c : Thread nD τ).loc main_arg11)) := by
  show W4 m ρ c (Proc.devRef .tc main_v4) = _
  dsimp only [W4, hostOps1_1]; after_results
  funext i
  show shapeCast S1x8 (W3 m ρ c (Proc.devRef .tc main_arg11) : FVec Ideal S8 .f32) shapeCasts_S8_S1x8 i = _
  rw [W3_arg11, reshape_row]

/-- Contents carried to a buffer's own type and back are the contents. -/
theorem ofBuf_toBuf {T : BufTy} (x : TRef sig T) (v : T.Contents (Elt Ideal)) : x.ofBuf (x.toBuf v) = v := by
  unfold TRef.ofBuf TRef.toBuf
  simp

set_option maxHeartbeats 8000000 in
set_option maxRecDepth 65536 in
/-- The fill-mode row gather as the host operations compute it from the encoded nodes and the senders. -/
theorem W4_v2_raw : (W4 m ρ c (Proc.devRef .tc main_v2) : FVec Ideal S10000000x8 .f32)
    = select (broadcastInDim S10000000x8 ![0] bcast_S10000000_S10000000x8_0
        (Host.reduce IntOp.andi
          (andi (cmpi .sge (Take.wrapped (W2 m ρ c (Proc.devRef .tc main_arg2) : IVec S10000000 32)) (broadcastInDim S10000000x1 ![] bcast_S_S10000000x1 (constantI S_ 32 0#32)))
            (cmpi .sle (Take.wrapped (W2 m ρ c (Proc.devRef .tc main_arg2) : IVec S10000000 32)) (broadcastInDim S10000000x1 ![0, 1] bcast_S1x1_S10000000x1_0_1
              (broadcastInDim S1x1 ![1] bcast_S1_S1x1_1 (constantI S1 32 499999#32)))))
          (constantI S_ 1 1#1) reducesTo_S10000000x1_S10000000_d1 h_S_))
      (Host.gather gather_S500000x8_S10000000x1_S10000000x8_1_0_n_n_0_1_18 (W2 m ρ c (Proc.devRef .tc main_v1) : FVec Ideal S500000x8 .f32) (Take.wrapped (W2 m ρ c (Proc.devRef .tc main_arg2) : IVec S10000000 32)))
      (broadcastInDim S10000000x8 ![] bcast_S_S10000000x8 (constant (F := Ideal) S_ .f32 0x7FC00000#32) : FVec Ideal S10000000x8 .f32) := by
  dsimp only [W4, W3, hostOps1_1, hostOps1]; after_results_simp
  simp only [ofBuf_toBuf]
  unfold Take.wrapped
  generalize W2 m ρ c (Proc.devRef .tc main_arg2) = s2
  generalize W2 m ρ c (Proc.devRef .tc main_v1) = t1
  have e2 : (TRef.of (T := ⟨S10000000, .i32⟩) main_arg2).ofBuf s2 = s2 := rfl
  have e1 : (TRef.of (T := ⟨S500000x8, .f32⟩) main_v1).ofBuf t1 = t1 := rfl
  have e0 : ∀ X : FVec Ideal S10000000x8 .f32, (TRef.of (T := ⟨S10000000x8, .f32⟩) main_v2).toBuf (Val := Elt Ideal) X = X := by intro X; rfl
  rw [e2, e1, e0]

/-- With the senders in range the gathered rows are the plain gather of the encoded nodes. -/
theorem W4_v2 (hs : ∀ i, -500000 ≤ ((m ((c : Thread nD τ).loc main_arg2) : IVec S10000000 32) i).toInt ∧ ((m ((c : Thread nD τ).loc main_arg2) : IVec S10000000 32) i).toInt < 500000) : V4 m ρ c main_v2 = (senderRows (nodes1 (m ((c : Thread nD τ).loc main_arg0)) (m ((c : Thread nD τ).loc main_arg7)) (m ((c : Thread nD τ).loc main_arg8))) (m ((c : Thread nD τ).loc main_arg2))) := by
  show W4 m ρ c (Proc.devRef .tc main_v2) = _
  rw [W4_v2_raw, W2_arg2, W2_v1, Take.take_eq_gather _ hs]
  rfl

/-- Region 1 leaves the hidden edges in its output array. -/
theorem W5_v5 (hs : ∀ i, -500000 ≤ ((m ((c : Thread nD τ).loc main_arg2) : IVec S10000000 32) i).toInt ∧ ((m ((c : Thread nD τ).loc main_arg2) : IVec S10000000 32) i).toInt < 500000) : W5 m ρ c (Proc.devRef .tc main_v5) = (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) := by
  refine (W5_arr m ρ c 7).trans ((EdgeBlock.array_eq (V4 m ρ) c).trans ?_)
  rw [W4_arg1, W4_arg5, W4_v3, W4_arg9, W4_v2 m ρ c hs, W4_arg10, W4_v4]
  rfl

/-! ### Region 2's entry -/

set_option maxHeartbeats 4000000 in
theorem W6_arg12 : V6 m ρ c main_arg12 = m ((c : Thread nD τ).loc main_arg12) := by
  show W6 m ρ c (Proc.devRef .tc main_arg12) = _
  repeat step_back
set_option maxHeartbeats 4000000 in
theorem W6_arg13 : V6 m ρ c main_arg13 = m ((c : Thread nD τ).loc main_arg13) := by
  show W6 m ρ c (Proc.devRef .tc main_arg13) = _
  repeat step_back
set_option maxHeartbeats 4000000 in
theorem W6_arg15 : V6 m ρ c main_arg15 = m ((c : Thread nD τ).loc main_arg15) := by
  show W6 m ρ c (Proc.devRef .tc main_arg15) = _
  repeat step_back

set_option maxHeartbeats 4000000 in
theorem W5_arg3 : W5 m ρ c (Proc.devRef .tc main_arg3) = m ((c : Thread nD τ).loc main_arg3) := by
  show W5 m ρ c (Proc.devRef .tc main_arg3) = _
  repeat step_back
set_option maxHeartbeats 4000000 in
theorem W5_arg14 : W5 m ρ c (Proc.devRef .tc main_arg14) = m ((c : Thread nD τ).loc main_arg14) := by
  show W5 m ρ c (Proc.devRef .tc main_arg14) = _
  repeat step_back
set_option maxHeartbeats 4000000 in
theorem W5_arg16 : W5 m ρ c (Proc.devRef .tc main_arg16) = m ((c : Thread nD τ).loc main_arg16) := by
  show W5 m ρ c (Proc.devRef .tc main_arg16) = _
  repeat step_back

set_option maxHeartbeats 4000000 in
theorem W6_v1 : V6 m ρ c main_v1 = (nodes1 (m ((c : Thread nD τ).loc main_arg0)) (m ((c : Thread nD τ).loc main_arg7)) (m ((c : Thread nD τ).loc main_arg8))) := by
  show W6 m ρ c (Proc.devRef .tc main_v1) = _
  repeat step_back
  exact W2_v1 m ρ c
set_option maxHeartbeats 4000000 in
theorem W6_v18 : V6 m ρ c main_v18 = rowOf (C := 8) (m ((c : Thread nD τ).loc main_arg14)) := by
  show W6 m ρ c (Proc.devRef .tc main_v18) = _
  dsimp only [W6, hostOps2]; after_results
  funext i
  show shapeCast S1x8 (W5 m ρ c (Proc.devRef .tc main_arg14) : FVec Ideal S8 .f32) shapeCasts_S8_S1x8 i = _
  rw [W5_arg14, reshape_row]
set_option maxHeartbeats 4000000 in
theorem W6_v19 : V6 m ρ c main_v19 = rowOf (C := 1) (m ((c : Thread nD τ).loc main_arg16)) := by
  show W6 m ρ c (Proc.devRef .tc main_v19) = _
  dsimp only [W6, hostOps2]; after_results
  funext i
  show shapeCast S1x1 (W5 m ρ c (Proc.devRef .tc main_arg16) : FVec Ideal S1 .f32) shapeCasts_S1_S1x1 i = _
  rw [W5_arg16, reshape_row]
set_option maxHeartbeats 4000000 in
theorem W6_v17 (hs : ∀ i, -500000 ≤ ((m ((c : Thread nD τ).loc main_arg2) : IVec S10000000 32) i).toInt ∧ ((m ((c : Thread nD τ).loc main_arg2) : IVec S10000000 32) i).toInt < 500000) : V6 m ρ c main_v17 = (incoming (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) (m ((c : Thread nD τ).loc main_arg3))) := by
  show W6 m ρ c (Proc.devRef .tc main_v17) = _
  have e : W6 m ρ c (Proc.devRef .tc main_v17)
      = incoming (W5 m ρ c (Proc.devRef .tc main_v5)) (W5 m ρ c (Proc.devRef .tc main_arg3)) := by
    dsimp only [W6, hostOps2]; after_results
    rfl
  rw [e, W5_v5 m ρ c hs, W5_arg3]

/-- Region 2 leaves the hidden nodes and their readout in its two output arrays. -/
theorem W7_hidden (hs : ∀ i, -500000 ≤ ((m ((c : Thread nD τ).loc main_arg2) : IVec S10000000 32) i).toInt ∧ ((m ((c : Thread nD τ).loc main_arg2) : IVec S10000000 32) i).toInt < 500000) : W7 m ρ c (Proc.devRef .tc main_v20_0) = (nodes2 (nodes1 (m ((c : Thread nD τ).loc main_arg0)) (m ((c : Thread nD τ).loc main_arg7)) (m ((c : Thread nD τ).loc main_arg8))) (m ((c : Thread nD τ).loc main_arg12)) (incoming (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) (m ((c : Thread nD τ).loc main_arg3))) (m ((c : Thread nD τ).loc main_arg13)) (m ((c : Thread nD τ).loc main_arg14))) := by
  refine (W7_arr m ρ c 7).trans ((NodeHidden.hidden_eq (V6 m ρ) c).trans ?_)
  rw [W6_v1, W6_arg12, W6_v17 m ρ c hs, W6_arg13, W6_v18]
  rfl
theorem W7_readout (hs : ∀ i, -500000 ≤ ((m ((c : Thread nD τ).loc main_arg2) : IVec S10000000 32) i).toInt ∧ ((m ((c : Thread nD τ).loc main_arg2) : IVec S10000000 32) i).toInt < 500000) : W7 m ρ c (Proc.devRef .tc main_v20_1) = nodesOut (nodes2 (nodes1 (m ((c : Thread nD τ).loc main_arg0)) (m ((c : Thread nD τ).loc main_arg7)) (m ((c : Thread nD τ).loc main_arg8))) (m ((c : Thread nD τ).loc main_arg12)) (incoming (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) (m ((c : Thread nD τ).loc main_arg3))) (m ((c : Thread nD τ).loc main_arg13)) (m ((c : Thread nD τ).loc main_arg14))) (m ((c : Thread nD τ).loc main_arg15)) (m ((c : Thread nD τ).loc main_arg16)) := by
  refine (W7_arr m ρ c 8).trans ((NodeHidden.readout_eq (V6 m ρ) c).trans ?_)
  rw [W6_v1, W6_arg12, W6_v17 m ρ c hs, W6_arg13, W6_v18, W6_arg15, W6_v19]
  rfl

/-! ### The two results -/

set_option maxHeartbeats 4000000 in
theorem W7_arg4 : W7 m ρ c (Proc.devRef .tc main_arg4) = m ((c : Thread nD τ).loc main_arg4) := by
  show W7 m ρ c (Proc.devRef .tc main_arg4) = _
  repeat step_back
set_option maxHeartbeats 4000000 in
theorem W7_arg17 : W7 m ρ c (Proc.devRef .tc main_arg17) = m ((c : Thread nD τ).loc main_arg17) := by
  show W7 m ρ c (Proc.devRef .tc main_arg17) = _
  repeat step_back
set_option maxHeartbeats 4000000 in
theorem W7_arg18 : W7 m ρ c (Proc.devRef .tc main_arg18) = m ((c : Thread nD τ).loc main_arg18) := by
  show W7 m ρ c (Proc.devRef .tc main_arg18) = _
  repeat step_back

set_option maxHeartbeats 4000000 in
/-- The node readout is region 2's second output; the last host stretch does not touch it. -/
theorem nodes_result (hs : ∀ i, -500000 ≤ ((m ((c : Thread nD τ).loc main_arg2) : IVec S10000000 32) i).toInt ∧ ((m ((c : Thread nD τ).loc main_arg2) : IVec S10000000 32) i).toInt < 500000) : W8 m ρ c (Proc.devRef .tc main_v20_1) = nodesOut (nodes2 (nodes1 (m ((c : Thread nD τ).loc main_arg0)) (m ((c : Thread nD τ).loc main_arg7)) (m ((c : Thread nD τ).loc main_arg8))) (m ((c : Thread nD τ).loc main_arg12)) (incoming (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) (m ((c : Thread nD τ).loc main_arg3))) (m ((c : Thread nD τ).loc main_arg13)) (m ((c : Thread nD τ).loc main_arg14))) (m ((c : Thread nD τ).loc main_arg15)) (m ((c : Thread nD τ).loc main_arg16)) := by
  step_back
  exact W7_readout m ρ c hs
set_option maxHeartbeats 4000000 in
/-- The graph readout: the last host stretch applied to region 2's first output. -/
theorem globals_result (hs : ∀ i, -500000 ≤ ((m ((c : Thread nD τ).loc main_arg2) : IVec S10000000 32) i).toInt ∧ ((m ((c : Thread nD τ).loc main_arg2) : IVec S10000000 32) i).toInt < 500000) : W8 m ρ c (Proc.devRef .tc main_v27) = globalsOut (nodes2 (nodes1 (m ((c : Thread nD τ).loc main_arg0)) (m ((c : Thread nD τ).loc main_arg7)) (m ((c : Thread nD τ).loc main_arg8))) (m ((c : Thread nD τ).loc main_arg12)) (incoming (edges2 (m ((c : Thread nD τ).loc main_arg1)) (m ((c : Thread nD τ).loc main_arg5)) (m ((c : Thread nD τ).loc main_arg6)) (m ((c : Thread nD τ).loc main_arg9)) (senderRows (nodes1 (m ((c : Thread nD τ).loc main_arg0)) (m ((c : Thread nD τ).loc main_arg7)) (m ((c : Thread nD τ).loc main_arg8))) (m ((c : Thread nD τ).loc main_arg2))) (m ((c : Thread nD τ).loc main_arg10)) (m ((c : Thread nD τ).loc main_arg11))) (m ((c : Thread nD τ).loc main_arg3))) (m ((c : Thread nD τ).loc main_arg13)) (m ((c : Thread nD τ).loc main_arg14))) (m ((c : Thread nD τ).loc main_arg4)) (m ((c : Thread nD τ).loc main_arg17)) (m ((c : Thread nD τ).loc main_arg18)) := by
  have e : W8 m ρ c (Proc.devRef .tc main_v27)
      = globalsOut (W7 m ρ c (Proc.devRef .tc main_v20_0)) (W7 m ρ c (Proc.devRef .tc main_arg4))
          (W7 m ρ c (Proc.devRef .tc main_arg17)) (W7 m ρ c (Proc.devRef .tc main_arg18)) := by
    dsimp only [W8, hostOps3]; after_results
    rfl
  rw [e, W7_hidden m ρ c hs, W7_arg4, W7_arg17, W7_arg18]

end Args

end Cert.KernelIdeal.Net

end
-- ==== Proof.RefNodeLayers.lean ====
import proofs.«418326_j28647431864464_2_alg».proof.Proof.Gen.ReferenceIdeal.Read
import proofs.«418326_j28647431864464_2_alg».proof.Proof.Layers
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.NodeLayers

open Cert.ReferenceIdeal Cert.ReferenceIdeal.Gen Cert.Gnn

/-! ## The three products read at an index -/

/-- Entry (r, c) of the encoder's product: the sum over the shared axis of length 4. -/
theorem dot_encode_apply (x : FVec Ideal S500000x4 .f32) (w : FVec Ideal S4x8 .f32) (i : S500000x8.Idx) :
    Host.dotGeneral dot_S500000x4_S4x8_S500000x8_1_0_0_1_n_n none x w i
      = ∑ k : Fin 4, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S500000x4_S4x8_S500000x8_1_0_0_1_n_n 4 rfl rfl).symm]
  refine Finset.sum_congr rfl fun k _ => ?_
  have hk := ValueIdx.contrEquiv1_symm_val dot_S500000x4_S4x8_S500000x8_1_0_0_1_n_n 4 rfl rfl k
  have el : dot_S500000x4_S4x8_S500000x8_1_0_0_1_n_n.lhsIdx i ((ValueIdx.contrEquiv1 dot_S500000x4_S4x8_S500000x8_1_0_0_1_n_n 4 rfl rfl).symm k)
      = ix2 ⟨(i 0).val, (i 0).isLt⟩ k := funext fun a => Fin.ext (by
    match a with
    | ⟨0, _⟩ => exact Read.lhs_main_v5_0 _ _
    | ⟨1, _⟩ => exact (Read.lhs_main_v5_1 _ _).trans hk)
  have er : dot_S500000x4_S4x8_S500000x8_1_0_0_1_n_n.rhsIdx i ((ValueIdx.contrEquiv1 dot_S500000x4_S4x8_S500000x8_1_0_0_1_n_n 4 rfl rfl).symm k)
      = ix2 k ⟨(i 1).val, (i 1).isLt⟩ := funext fun a => Fin.ext (by
    match a with
    | ⟨0, _⟩ => exact (Read.rhs_main_v5_0 _ _).trans hk
    | ⟨1, _⟩ => exact Read.rhs_main_v5_1 _ _)
  rw [el, er]
  rfl

/-- Entry (r, c) of a hidden layer's product: the sum over the shared axis of length 8. -/
theorem dot_hidden_apply (x : FVec Ideal S500000x8 .f32) (w : FVec Ideal S8x8 .f32) (i : S500000x8.Idx) :
    Host.dotGeneral dot_S500000x8_S8x8_S500000x8_1_0_0_1_n_n none x w i
      = ∑ k : Fin 8, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S500000x8_S8x8_S500000x8_1_0_0_1_n_n 8 rfl rfl).symm]
  refine Finset.sum_congr rfl fun k _ => ?_
  have hk := ValueIdx.contrEquiv1_symm_val dot_S500000x8_S8x8_S500000x8_1_0_0_1_n_n 8 rfl rfl k
  have el : dot_S500000x8_S8x8_S500000x8_1_0_0_1_n_n.lhsIdx i ((ValueIdx.contrEquiv1 dot_S500000x8_S8x8_S500000x8_1_0_0_1_n_n 8 rfl rfl).symm k)
      = ix2 ⟨(i 0).val, (i 0).isLt⟩ k := funext fun a => Fin.ext (by
    match a with
    | ⟨0, _⟩ => exact Read.lhs_main_v36_0 _ _
    | ⟨1, _⟩ => exact (Read.lhs_main_v36_1 _ _).trans hk)
  have er : dot_S500000x8_S8x8_S500000x8_1_0_0_1_n_n.rhsIdx i ((ValueIdx.contrEquiv1 dot_S500000x8_S8x8_S500000x8_1_0_0_1_n_n 8 rfl rfl).symm k)
      = ix2 k ⟨(i 1).val, (i 1).isLt⟩ := funext fun a => Fin.ext (by
    match a with
    | ⟨0, _⟩ => exact (Read.rhs_main_v36_0 _ _).trans hk
    | ⟨1, _⟩ => exact Read.rhs_main_v36_1 _ _)
  rw [el, er]
  rfl

/-- Entry (r, 0) of the readout's product: the sum over the shared axis of length 8. -/
theorem dot_readout_apply (x : FVec Ideal S500000x8 .f32) (w : FVec Ideal S8x1 .f32) (i : S500000x1.Idx) :
    Host.dotGeneral dot_S500000x8_S8x1_S500000x1_1_0_0_1_n_n none x w i
      = ∑ k : Fin 8, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S500000x8_S8x1_S500000x1_1_0_0_1_n_n 8 rfl rfl).symm]
  refine Finset.sum_congr rfl fun k _ => ?_
  have hk := ValueIdx.contrEquiv1_symm_val dot_S500000x8_S8x1_S500000x1_1_0_0_1_n_n 8 rfl rfl k
  have el : dot_S500000x8_S8x1_S500000x1_1_0_0_1_n_n.lhsIdx i ((ValueIdx.contrEquiv1 dot_S500000x8_S8x1_S500000x1_1_0_0_1_n_n 8 rfl rfl).symm k)
      = ix2 ⟨(i 0).val, (i 0).isLt⟩ k := funext fun a => Fin.ext (by
    match a with
    | ⟨0, _⟩ => exact Read.lhs_main_v43_0 _ _
    | ⟨1, _⟩ => exact (Read.lhs_main_v43_1 _ _).trans hk)
  have er : dot_S500000x8_S8x1_S500000x1_1_0_0_1_n_n.rhsIdx i ((ValueIdx.contrEquiv1 dot_S500000x8_S8x1_S500000x1_1_0_0_1_n_n 8 rfl rfl).symm k)
      = ix2 k ⟨(i 1).val, (i 1).isLt⟩ := funext fun a => Fin.ext (by
    match a with
    | ⟨0, _⟩ => exact (Read.rhs_main_v43_0 _ _).trans hk
    | ⟨1, _⟩ => exact Read.rhs_main_v43_1 _ _)
  rw [el, er]
  rfl

/-! ## The bias rows and the rectifier's zero read at an index -/

/-- A length-8 bias, laid out as one row and then repeated down the rows, reads at (r, c) its entry c. -/
theorem bias8_apply (b : FVec Ideal S8 .f32) (i : S500000x8.Idx) :
    broadcastInDim S500000x8 ![0, 1] bcast_S1x8_S500000x8_0_1 (broadcastInDim S1x8 ![1] bcast_S8_S1x8_1 b) i
      = b (ix1 ⟨(i 1).val, (i 1).isLt⟩) := by
  have h1 : ∀ (y : FVec Ideal S1x8 .f32),
      broadcastInDim S500000x8 ![0, 1] bcast_S1x8_S500000x8_0_1 y i
        = y (ix2 ⟨0, Nat.one_pos⟩ ⟨(i 1).val, (i 1).isLt⟩) := fun y =>
    broadcastInDim_apply _ bcast_S1x8_S500000x8_0_1 y i (ix2 ⟨0, Nat.one_pos⟩ ⟨(i 1).val, (i 1).isLt⟩) (fun a => match a with
      | ⟨0, _⟩ => by show 0 = if (1 : Nat) = 1 then 0 else (i 0).val; rw [if_pos rfl]
      | ⟨1, _⟩ => by show (i 1).val = if (8 : Nat) = 1 then 0 else (i 1).val; rw [if_neg (by decide)])
  rw [h1]
  exact broadcastInDim_apply _ bcast_S8_S1x8_1 b _ (ix1 ⟨(i 1).val, (i 1).isLt⟩) (fun a => match a with
    | ⟨0, _⟩ => by show (i 1).val = if (8 : Nat) = 1 then 0 else (i 1).val; rw [if_neg (by decide)])

/-- A length-1 bias, laid out as a 1 × 1 matrix and then repeated down the rows, reads everywhere its one entry. -/
theorem bias1_apply (b : FVec Ideal S1 .f32) (i : S500000x1.Idx) :
    broadcastInDim S500000x1 ![0, 1] bcast_S1x1_S500000x1_0_1 (broadcastInDim S1x1 ![1] bcast_S1_S1x1_1 b) i
      = b (ix1 ⟨0, Nat.one_pos⟩) := by
  have h1 : ∀ (y : FVec Ideal S1x1 .f32),
      broadcastInDim S500000x1 ![0, 1] bcast_S1x1_S500000x1_0_1 y i
        = y (ix2 ⟨0, Nat.one_pos⟩ ⟨0, Nat.one_pos⟩) := fun y =>
    broadcastInDim_apply _ bcast_S1x1_S500000x1_0_1 y i (ix2 ⟨0, Nat.one_pos⟩ ⟨0, Nat.one_pos⟩) (fun a => match a with
      | ⟨0, _⟩ => by show 0 = if (1 : Nat) = 1 then 0 else (i 0).val; rw [if_pos rfl]
      | ⟨1, _⟩ => by show 0 = if (1 : Nat) = 1 then 0 else (i 1).val; rw [if_pos rfl])
  rw [h1]
  exact broadcastInDim_apply _ bcast_S1_S1x1_1 b _ (ix1 ⟨0, Nat.one_pos⟩) (fun a => match a with
    | ⟨0, _⟩ => by show 0 = if (1 : Nat) = 1 then 0 else _; rw [if_pos rfl])

/-- The zero scalar repeated over the whole 500000 × 8 array reads everywhere the value the zero word denotes. -/
theorem zero8_apply (i : S500000x8.Idx) :
    broadcastInDim S500000x8 ![] bcast_S_S500000x8 (constant (F := Ideal) S_ .f32 0x00000000#32) i = z32 := by
  have h1 : ∀ (y : FVec Ideal S_ .f32),
      broadcastInDim S500000x8 ![] bcast_S_S500000x8 y i = y (fun a => a.elim0) := fun y =>
    broadcastInDim_apply _ bcast_S_S500000x8 y i (fun a => a.elim0) (fun a => a.elim0)
  rw [h1]
  rfl

/-! ## The three node layers -/

theorem node_encode (x : FVec Ideal S500000x4 .f32) (w : FVec Ideal S4x8 .f32) (b : FVec Ideal S8 .f32) :
    maximumf (addf (Host.dotGeneral dot_S500000x4_S4x8_S500000x8_1_0_0_1_n_n none x w)
        (broadcastInDim S500000x8 ![0, 1] bcast_S1x8_S500000x8_0_1 (broadcastInDim S1x8 ![1] bcast_S8_S1x8_1 b)))
      (broadcastInDim S500000x8 ![] bcast_S_S500000x8 (constant S_ .f32 0x00000000#32))
    = denseRelu (R := 500000) (K := 4) (C := 8) x w (rowOf b) := by
  funext i
  rw [maximumf_apply, addf_apply, dot_encode_apply, bias8_apply, zero8_apply]
  rfl

theorem node_hidden (x : FVec Ideal S500000x8 .f32) (w : FVec Ideal S8x8 .f32) (y : FVec Ideal S500000x8 .f32)
    (v : FVec Ideal S8x8 .f32) (b : FVec Ideal S8 .f32) :
    maximumf (addf (addf (Host.dotGeneral dot_S500000x8_S8x8_S500000x8_1_0_0_1_n_n none x w)
          (Host.dotGeneral dot_S500000x8_S8x8_S500000x8_1_0_0_1_n_n none y v))
        (broadcastInDim S500000x8 ![0, 1] bcast_S1x8_S500000x8_0_1 (broadcastInDim S1x8 ![1] bcast_S8_S1x8_1 b)))
      (broadcastInDim S500000x8 ![] bcast_S_S500000x8 (constant S_ .f32 0x00000000#32))
    = twoDenseRelu (R := 500000) (K := 8) (L := 8) (C := 8) x w y v (rowOf b) := by
  funext i
  rw [maximumf_apply, addf_apply, addf_apply, dot_hidden_apply, dot_hidden_apply, bias8_apply, zero8_apply]
  rfl

theorem node_readout (x : FVec Ideal S500000x8 .f32) (w : FVec Ideal S8x1 .f32) (b : FVec Ideal S1 .f32) :
    addf (Host.dotGeneral dot_S500000x8_S8x1_S500000x1_1_0_0_1_n_n none x w)
        (broadcastInDim S500000x1 ![0, 1] bcast_S1x1_S500000x1_0_1 (broadcastInDim S1x1 ![1] bcast_S1_S1x1_1 b))
    = dense (R := 500000) (K := 8) (C := 1) x w (rowOf b) := by
  funext i
  rw [addf_apply, dot_readout_apply, bias1_apply]
  -- the one column: every column coordinate below 1 is 0
  have hc : (⟨0, Nat.one_pos⟩ : Fin 1) = ⟨(i 1).val, (i 1).isLt⟩ := Subsingleton.elim _ _
  rw [hc]
  rfl

end Cert.ReferenceIdeal.NodeLayers

end
-- ==== Proof.RefEdgeLayers.lean ====
import proofs.«418326_j28647431864464_2_alg».proof.Proof.Gen.ReferenceIdeal.Read
import proofs.«418326_j28647431864464_2_alg».proof.Proof.Layers
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.EdgeLayers

open Cert.ReferenceIdeal Cert.ReferenceIdeal.Gen Cert.Gnn

/-- An entry of the exact product of a 10000000x2 array with a 2x4 array: the sum over the shared axis of
    the left operand's row entry times the right operand's column entry. -/
theorem dot_2_4_apply (x : FVec Ideal S10000000x2 .f32) (w : FVec Ideal S2x4 .f32) (i : S10000000x4.Idx) :
    Host.dotGeneral dot_S10000000x2_S2x4_S10000000x4_1_0_0_1_n_n none x w i
      = ∑ k : Fin 2, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S10000000x2_S2x4_S10000000x4_1_0_0_1_n_n 2 rfl rfl).symm]
  refine Finset.sum_congr rfl fun k _ => ?_
  have hk := ValueIdx.contrEquiv1_symm_val dot_S10000000x2_S2x4_S10000000x4_1_0_0_1_n_n 2 rfl rfl k
  have el : dot_S10000000x2_S2x4_S10000000x4_1_0_0_1_n_n.lhsIdx i ((ValueIdx.contrEquiv1 dot_S10000000x2_S2x4_S10000000x4_1_0_0_1_n_n 2 rfl rfl).symm k)
      = ix2 ⟨(i 0).val, (i 0).isLt⟩ k := funext fun a => Fin.ext (by
    match a with
    | ⟨0, _⟩ => exact Read.lhs_main_v0_0 _ _
    | ⟨1, _⟩ => exact (Read.lhs_main_v0_1 _ _).trans hk)
  have er : dot_S10000000x2_S2x4_S10000000x4_1_0_0_1_n_n.rhsIdx i ((ValueIdx.contrEquiv1 dot_S10000000x2_S2x4_S10000000x4_1_0_0_1_n_n 2 rfl rfl).symm k)
      = ix2 k ⟨(i 1).val, (i 1).isLt⟩ := funext fun a => Fin.ext (by
    match a with
    | ⟨0, _⟩ => exact (Read.rhs_main_v0_0 _ _).trans hk
    | ⟨1, _⟩ => exact Read.rhs_main_v0_1 _ _)
  rw [el, er]
  rfl

/-- An entry of the exact product of a 10000000x4 array with a 4x8 array: the sum over the shared axis of
    the left operand's row entry times the right operand's column entry. -/
theorem dot_4_8_apply (x : FVec Ideal S10000000x4 .f32) (w : FVec Ideal S4x8 .f32) (i : S10000000x8.Idx) :
    Host.dotGeneral dot_S10000000x4_S4x8_S10000000x8_1_0_0_1_n_n none x w i
      = ∑ k : Fin 4, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S10000000x4_S4x8_S10000000x8_1_0_0_1_n_n 4 rfl rfl).symm]
  refine Finset.sum_congr rfl fun k _ => ?_
  have hk := ValueIdx.contrEquiv1_symm_val dot_S10000000x4_S4x8_S10000000x8_1_0_0_1_n_n 4 rfl rfl k
  have el : dot_S10000000x4_S4x8_S10000000x8_1_0_0_1_n_n.lhsIdx i ((ValueIdx.contrEquiv1 dot_S10000000x4_S4x8_S10000000x8_1_0_0_1_n_n 4 rfl rfl).symm k)
      = ix2 ⟨(i 0).val, (i 0).isLt⟩ k := funext fun a => Fin.ext (by
    match a with
    | ⟨0, _⟩ => exact Read.lhs_main_v10_0 _ _
    | ⟨1, _⟩ => exact (Read.lhs_main_v10_1 _ _).trans hk)
  have er : dot_S10000000x4_S4x8_S10000000x8_1_0_0_1_n_n.rhsIdx i ((ValueIdx.contrEquiv1 dot_S10000000x4_S4x8_S10000000x8_1_0_0_1_n_n 4 rfl rfl).symm k)
      = ix2 k ⟨(i 1).val, (i 1).isLt⟩ := funext fun a => Fin.ext (by
    match a with
    | ⟨0, _⟩ => exact (Read.rhs_main_v10_0 _ _).trans hk
    | ⟨1, _⟩ => exact Read.rhs_main_v10_1 _ _)
  rw [el, er]
  rfl

/-- An entry of the exact product of a 10000000x8 array with a 8x8 array: the sum over the shared axis of
    the left operand's row entry times the right operand's column entry. -/
theorem dot_8_8_apply (x : FVec Ideal S10000000x8 .f32) (w : FVec Ideal S8x8 .f32) (i : S10000000x8.Idx) :
    Host.dotGeneral dot_S10000000x8_S8x8_S10000000x8_1_0_0_1_n_n none x w i
      = ∑ k : Fin 8, x (ix2 ⟨(i 0).val, (i 0).isLt⟩ k) * w (ix2 k ⟨(i 1).val, (i 1).isLt⟩) := by
  simp only [Host.dotGeneral]
  rw [Ideal.dotGeneral_apply, ← Equiv.sum_comp (ValueIdx.contrEquiv1 dot_S10000000x8_S8x8_S10000000x8_1_0_0_1_n_n 8 rfl rfl).symm]
  refine Finset.sum_congr rfl fun k _ => ?_
  have hk := ValueIdx.contrEquiv1_symm_val dot_S10000000x8_S8x8_S10000000x8_1_0_0_1_n_n 8 rfl rfl k
  have el : dot_S10000000x8_S8x8_S10000000x8_1_0_0_1_n_n.lhsIdx i ((ValueIdx.contrEquiv1 dot_S10000000x8_S8x8_S10000000x8_1_0_0_1_n_n 8 rfl rfl).symm k)
      = ix2 ⟨(i 0).val, (i 0).isLt⟩ k := funext fun a => Fin.ext (by
    match a with
    | ⟨0, _⟩ => exact Read.lhs_main_v18_0 _ _
    | ⟨1, _⟩ => exact (Read.lhs_main_v18_1 _ _).trans hk)
  have er : dot_S10000000x8_S8x8_S10000000x8_1_0_0_1_n_n.rhsIdx i ((ValueIdx.contrEquiv1 dot_S10000000x8_S8x8_S10000000x8_1_0_0_1_n_n 8 rfl rfl).symm k)
      = ix2 k ⟨(i 1).val, (i 1).isLt⟩ := funext fun a => Fin.ext (by
    match a with
    | ⟨0, _⟩ => exact (Read.rhs_main_v18_0 _ _).trans hk
    | ⟨1, _⟩ => exact Read.rhs_main_v18_1 _ _)
  rw [el, er]
  rfl

/-- The bias vector laid out as one row and then repeated down every row: entry (r, c) is the vector's entry c. -/
theorem bias_4_apply (b : FVec Ideal S4 .f32) (i : S10000000x4.Idx) :
    broadcastInDim S10000000x4 ![0, 1] bcast_S1x4_S10000000x4_0_1 (broadcastInDim S1x4 ![1] bcast_S4_S1x4_1 b) i
      = b (ix1 ⟨(i 1).val, (i 1).isLt⟩) := by
  have h1 : ∀ (y : FVec Ideal S1x4 .f32),
      broadcastInDim S10000000x4 ![0, 1] bcast_S1x4_S10000000x4_0_1 y i = y (ix2 ⟨0, Nat.one_pos⟩ ⟨(i 1).val, (i 1).isLt⟩) := fun y =>
    broadcastInDim_apply _ bcast_S1x4_S10000000x4_0_1 y i (ix2 ⟨0, Nat.one_pos⟩ ⟨(i 1).val, (i 1).isLt⟩) (fun a => match a with
      | ⟨0, _⟩ => by show 0 = if (1 : Nat) = 1 then 0 else (i 0).val; rw [if_pos rfl]
      | ⟨1, _⟩ => by show (i 1).val = if (4 : Nat) = 1 then 0 else (i 1).val; rw [if_neg (by decide)])
  rw [h1]
  exact broadcastInDim_apply _ bcast_S4_S1x4_1 b (ix2 ⟨0, Nat.one_pos⟩ ⟨(i 1).val, (i 1).isLt⟩) (ix1 ⟨(i 1).val, (i 1).isLt⟩) (fun a => match a with
    | ⟨0, _⟩ => by show (i 1).val = if (4 : Nat) = 1 then 0 else (i 1).val; rw [if_neg (by decide)])

/-- The bias vector laid out as one row and then repeated down every row: entry (r, c) is the vector's entry c. -/
theorem bias_8_apply (b : FVec Ideal S8 .f32) (i : S10000000x8.Idx) :
    broadcastInDim S10000000x8 ![0, 1] bcast_S1x8_S10000000x8_0_1 (broadcastInDim S1x8 ![1] bcast_S8_S1x8_1 b) i
      = b (ix1 ⟨(i 1).val, (i 1).isLt⟩) := by
  have h1 : ∀ (y : FVec Ideal S1x8 .f32),
      broadcastInDim S10000000x8 ![0, 1] bcast_S1x8_S10000000x8_0_1 y i = y (ix2 ⟨0, Nat.one_pos⟩ ⟨(i 1).val, (i 1).isLt⟩) := fun y =>
    broadcastInDim_apply _ bcast_S1x8_S10000000x8_0_1 y i (ix2 ⟨0, Nat.one_pos⟩ ⟨(i 1).val, (i 1).isLt⟩) (fun a => match a with
      | ⟨0, _⟩ => by show 0 = if (1 : Nat) = 1 then 0 else (i 0).val; rw [if_pos rfl]
      | ⟨1, _⟩ => by show (i 1).val = if (8 : Nat) = 1 then 0 else (i 1).val; rw [if_neg (by decide)])
  rw [h1]
  exact broadcastInDim_apply _ bcast_S8_S1x8_1 b (ix2 ⟨0, Nat.one_pos⟩ ⟨(i 1).val, (i 1).isLt⟩) (ix1 ⟨(i 1).val, (i 1).isLt⟩) (fun a => match a with
    | ⟨0, _⟩ => by show (i 1).val = if (8 : Nat) = 1 then 0 else (i 1).val; rw [if_neg (by decide)])

/-- The rectifier's floor: the scalar zero word repeated over the whole array reads, at every entry, the value the word denotes. -/
theorem zero_4_apply (i : S10000000x4.Idx) :
    broadcastInDim S10000000x4 ![] bcast_S_S10000000x4 (constant (F := Ideal) S_ .f32 0x00000000#32) i = z32 := by
  have h : ∀ (y : FVec Ideal S_ .f32), broadcastInDim S10000000x4 ![] bcast_S_S10000000x4 y i = y (fun a => a.elim0) := fun y =>
    broadcastInDim_apply _ bcast_S_S10000000x4 y i (fun a => a.elim0) (fun a => a.elim0)
  rw [h]
  rfl

/-- The rectifier's floor: the scalar zero word repeated over the whole array reads, at every entry, the value the word denotes. -/
theorem zero_8_apply (i : S10000000x8.Idx) :
    broadcastInDim S10000000x8 ![] bcast_S_S10000000x8 (constant (F := Ideal) S_ .f32 0x00000000#32) i = z32 := by
  have h : ∀ (y : FVec Ideal S_ .f32), broadcastInDim S10000000x8 ![] bcast_S_S10000000x8 y i = y (fun a => a.elim0) := fun y =>
    broadcastInDim_apply _ bcast_S_S10000000x8 y i (fun a => a.elim0) (fun a => a.elim0)
  rw [h]
  rfl

theorem edge_encode (x : FVec Ideal S10000000x2 .f32) (w : FVec Ideal S2x4 .f32) (b : FVec Ideal S4 .f32) :
    maximumf (addf (Host.dotGeneral dot_S10000000x2_S2x4_S10000000x4_1_0_0_1_n_n none x w)
        (broadcastInDim S10000000x4 ![0, 1] bcast_S1x4_S10000000x4_0_1 (broadcastInDim S1x4 ![1] bcast_S4_S1x4_1 b)))
      (broadcastInDim S10000000x4 ![] bcast_S_S10000000x4 (constant S_ .f32 0x00000000#32))
    = denseRelu (R := 10000000) (K := 2) (C := 4) x w (rowOf b) := by
  funext i
  rw [maximumf_apply, addf_apply, dot_2_4_apply, bias_4_apply, zero_4_apply]
  rfl

theorem edge_hidden (x : FVec Ideal S10000000x4 .f32) (w : FVec Ideal S4x8 .f32) (y : FVec Ideal S10000000x8 .f32)
    (v : FVec Ideal S8x8 .f32) (b : FVec Ideal S8 .f32) :
    maximumf (addf (addf (Host.dotGeneral dot_S10000000x4_S4x8_S10000000x8_1_0_0_1_n_n none x w)
          (Host.dotGeneral dot_S10000000x8_S8x8_S10000000x8_1_0_0_1_n_n none y v))
        (broadcastInDim S10000000x8 ![0, 1] bcast_S1x8_S10000000x8_0_1 (broadcastInDim S1x8 ![1] bcast_S8_S1x8_1 b)))
      (broadcastInDim S10000000x8 ![] bcast_S_S10000000x8 (constant S_ .f32 0x00000000#32))
    = twoDenseRelu (R := 10000000) (K := 4) (L := 8) (C := 8) x w y v (rowOf b) := by
  funext i
  rw [maximumf_apply, addf_apply, addf_apply, dot_4_8_apply, dot_8_8_apply, bias_8_apply, zero_8_apply]
  rfl

end Cert.ReferenceIdeal.EdgeLayers

end
-- ==== Proof.lean ====
/-
  A message-passing graph network, computed two ways: by three gridded kernels (node encoder; edge encoder and hidden
  edge block fused; hidden node block with the node readout) with a row gather and segment sums between them, and by
  the plain array program. Over the extended reals every change of float format is the identity and every matrix
  product is the exact sum over the shared axis, so each kernel's output array is, index by index, the layer it
  implements applied to whole arrays:
      n1 = relu (x·Wn + bn)                       e1 = relu (e·We + be)
      e2 = relu (e1·Weh + n1[senders]·Wsh + beh)  inc = segment-mean of e2 by receiver
      n2 = relu (n1·Wnh + inc·Winh + bnh)         nodes = n2·Wrn + brn      graphs = (segment-sum of n2)·Wrg + brg.
  The same products, sums and rectifiers, in the same association, are what the array program computes, and the
  gather, the segment sums and the graph readout are the same host operations on both sides, so no law of arithmetic
  beyond reading the operations index by index is used, and finiteness of the inputs is never needed. What IS
  needed is that every sender index lies in [-N, N) (N = 500000 nodes, negatives counted from the end): the kernel
  program gathers sender rows in fill mode, which answers an out-of-range index with a fill value where the array
  program clamps it; under the range the fill mask is all ones and both gather the same row.
-/
import proofs.«418326_j28647431864464_2_alg».proof.Defs
import proofs.«418326_j28647431864464_2_alg».proof.Proof.Gen.Kernel
import proofs.«418326_j28647431864464_2_alg».proof.Proof.Gen.Kernel.Frame
import proofs.«418326_j28647431864464_2_alg».proof.Proof.Gen.KernelIdeal
import proofs.«418326_j28647431864464_2_alg».proof.Proof.Gen.KernelIdeal.Frame
import proofs.«418326_j28647431864464_2_alg».proof.Proof.Gen.ReferenceIdeal
import proofs.«418326_j28647431864464_2_alg».proof.Proof.Gen.ReferenceIdeal.Run
import proofs.«418326_j28647431864464_2_alg».proof.Proof.Gen.ReferenceIdeal.Read
import proofs.«418326_j28647431864464_2_alg».proof.Proof.Gen.Pre_finite_inputs
import proofs.«418326_j28647431864464_2_alg».proof.Proof.KernelRun
import proofs.«418326_j28647431864464_2_alg».proof.Proof.KernelValue
import proofs.«418326_j28647431864464_2_alg».proof.Proof.RefNodeLayers
import proofs.«418326_j28647431864464_2_alg».proof.Proof.RefEdgeLayers
import proofs.«418326_j28647431864464_2_alg».proof.Proof.Take
import Idealize.ShloMosaic.Adequacy
import Idealize.ShloMosaic.Init

noncomputable section

namespace Cert.Proof

open Idealize.ShloMosaic Idealize.SL.Sem Cert.KernelIdeal.Net

/-- The word-level kernel program runs and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The array program has no kernel: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the node readout and the graph readout of the same network of the same arrays. -/
theorem algebraic : Cert.algebraic_KernelIdeal_ReferenceIdeal := by
  intro m ρ m' ρ' hpre hagree
  have hs := fun c i => Cert.KernelIdeal.Take.senders_in_range m hpre c i
  refine ⟨fun c => nodesOut (nodes2 (nodes1 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg12)) (incoming (edges2 (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (senderRows (nodes1 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2))) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg3))) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => globalsOut (nodes2 (nodes1 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg12)) (incoming (edges2 (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (senderRows (nodes1 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2))) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg3))) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg4)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.Named.run_results (F := Ideal) m ρ)
    exact ⟨(h c).1.trans (nodes_result m ρ c (hs c)), (h c).2.1.trans (globals_result m ρ c (hs c)), (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]
      rw [Cert.ReferenceIdeal.NodeLayers.node_encode, Cert.ReferenceIdeal.EdgeLayers.edge_encode,
        Cert.ReferenceIdeal.EdgeLayers.edge_hidden, Cert.ReferenceIdeal.NodeLayers.node_hidden,
        Cert.ReferenceIdeal.NodeLayers.node_readout]
      unfold nodesOut nodes2 incoming edges2 senderRows nodes1 Cert.KernelIdeal.Take.wrapped
      rfl
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.2.2.1, (hagree c).2.2.2.2.2.2.2.2.2.2.2.2.2.2.2.2.2.2]
      rw [Cert.ReferenceIdeal.NodeLayers.node_encode, Cert.ReferenceIdeal.EdgeLayers.edge_encode,
        Cert.ReferenceIdeal.EdgeLayers.edge_hidden, Cert.ReferenceIdeal.NodeLayers.node_hidden]
      unfold globalsOut nodes2 incoming edges2 senderRows nodes1 Cert.KernelIdeal.Take.wrapped
      rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
